-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S16x256 : Shape := ⟨2, ![16, 256]⟩
abbrev S256 : Shape := ⟨1, ![256]⟩
abbrev S256x256 : Shape := ⟨2, ![256, 256]⟩
abbrev S512x256 : Shape := ⟨2, ![512, 256]⟩
abbrev S256x16 : Shape := ⟨2, ![256, 16]⟩
abbrev S16 : Shape := ⟨1, ![16]⟩
abbrev S_ : Shape := ⟨0, ![]⟩
abbrev S1x800000 : Shape := ⟨2, ![1, 800000]⟩
abbrev S800000 : Shape := ⟨1, ![800000]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : IVec S1x800000 32 := (extractStridedSlice S1x800000 ![0, 0] · slices_S2x800000_S1x800000_0_0) main_arg1
  let main_v55 : IVec S800000 32 := shapeCast S800000 main_v54 shapeCasts_S1x800000_S800000
  let main_c_20 : IVec S_ 32 := constantI S_ 32 4294917296#32
  let main_v56 : IVec S800000 32 := broadcastInDim S800000 ![] bcast_S_S800000 main_c_20
  let main_v57 : IVec S800000 1 := cmpi .sge main_v55 main_v56
  let main_v58 : IVec S1x800000 32 := (extractStridedSlice S1x800000 ![0, 0] · slices_S2x800000_S1x800000_0_0) main_arg1
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg1 : IVec S2x800000 32) (main_arg8 : FVec F S512x256 .f32) (main_arg9 : FVec F S256 .f32) (main_arg10 : FVec F S256x16 .f32) (main_arg11 : FVec F S16 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x16 .f32 := Host.absf main_arg10
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg1 main_v48 main_v49 main_v50

def fn_part1 {F : FTy → Type} [FloatOps F] (main_arg1 : IVec S2x800000 32) (main_arg5 : FVec F S256 .f32) (main_arg6 : FVec F S256x256 .f32) (main_arg7 : FVec F S256 .f32) (main_arg8 : FVec F S512x256 .f32) (main_arg9 : FVec F S256 .f32) (main_arg10 : FVec F S256x16 .f32) (main_arg11 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x16 .f32) (main_arg1 : IVec S2x800000 32) (main_arg2 : FVec F S16x256 .f32) (main_arg3 : FVec F S256 .f32) (main_arg4 : FVec F S256x256 .f32) (main_arg5 : FVec F S256 .f32) (main_arg6 : FVec F S256x256 .f32) (main_arg7 : FVec F S256 .f32) (main_arg8 : FVec F S512x256 .f32) (main_arg9 : FVec F S256 .f32) (main_arg10 : FVec F S256x16 .f32) (main_arg11 : FVec F S16 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x256 .f32 := Host.absf main_arg2
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_arg10 main_arg11 main_v13 main_v16
-- ==== Kernel.lean ====
abbrev S50000x16 : Shape := ⟨2, ![50000, 16]⟩
abbrev S2x800000 : Shape := ⟨2, ![2, 800000]⟩
abbrev S16x256 : Shape := ⟨2, ![16, 256]⟩
abbrev S256 : Shape := ⟨1, ![256]⟩
abbrev S256x256 : Shape := ⟨2, ![256, 256]⟩
abbrev S512x256 : Shape := ⟨2, ![512, 256]⟩
abbrev S256x16 : Shape := ⟨2, ![256, 16]⟩
abbrev S16 : Shape := ⟨1, ![16]⟩
abbrev S50000x256 : Shape := ⟨2, ![50000, 256]⟩
abbrev S5000x16 : Shape := ⟨2, ![5000, 16]⟩
abbrev S5000x256 : Shape := ⟨2, ![5000, 256]⟩
abbrev S1x256 : Shape := ⟨2, ![1, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S1x16 : Shape := ⟨2, ![1, 16]⟩

abbrev nBuf : Space → Nat
  | .hbm => 55
  | .vmem => 23
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S16x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256x16, .f32⟩
  | .hbm, ⟨11, _⟩ => ⟨S16, .f32⟩
  | .hbm, ⟨12, _⟩ => ⟨S16x256, .bf16⟩
  | .hbm, ⟨13, _⟩ => ⟨S256x256, .bf16⟩
  | .hbm, ⟨14, _⟩ => ⟨S256x256, .bf16⟩
  | .hbm, ⟨15, _⟩ => ⟨S256x256, .f32⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x16, .bf16⟩
  | .hbm, ⟨20, _⟩ => ⟨S50000x256, .bf16⟩
  | .hbm, ⟨21, _⟩ => ⟨S50000x256, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S1, .i32⟩
  | .hbm, ⟨35, _⟩ => ⟨S_, .i32⟩
  | .hbm, ⟨36, _⟩ => ⟨S800000x1, .i32⟩
  | .hbm, ⟨37, _⟩ => ⟨S800000x1, .i1⟩
  | .hbm, ⟨38, _⟩ => ⟨S1x1, .i32⟩
  | .hbm, ⟨39, _⟩ => ⟨S800000x1, .i32⟩
  | .hbm, ⟨40, _⟩ => ⟨S800000x1, .i1⟩
  | .hbm, ⟨41, _⟩ => ⟨S800000x1, .i1⟩
  | .hbm, ⟨42, _⟩ => ⟨S_, .i1⟩
  | .hbm, ⟨43, _⟩ => ⟨S800000, .i1⟩
  | .hbm, ⟨44, _⟩ => ⟨S800000x256, .f32⟩
  | .hbm, ⟨45, _⟩ => ⟨S800000x256, .i1⟩
  | .hbm, ⟨46, _⟩ => ⟨S_, .f32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .bf16⟩
  | .hbm, ⟨54, _⟩ => ⟨S50000x16, .f32⟩
  | .local _ .vmem, ⟨0, _⟩ => ⟨S5000x16, .f32⟩
  | .local _ .vmem, ⟨1, _⟩ => ⟨S5000x16, .f32⟩
  | .local _ .vmem, ⟨2, _⟩ => ⟨S16x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S5000x256, .bf16⟩
  | .local _ .vmem, ⟨9, _⟩ => ⟨S5000x256, .bf16⟩
  | .local _ .vmem, ⟨10, _⟩ => ⟨S5000x256, .f32⟩
  | .local _ .vmem, ⟨11, _⟩ => ⟨S5000x256, .f32⟩
  | .local _ .vmem, ⟨12, _⟩ => ⟨S5000x256, .bf16⟩
  | .local _ .vmem, ⟨13, _⟩ => ⟨S5000x256, .bf16⟩
  | .local _ .vmem, ⟨14, _⟩ => ⟨S5000x256, .bf16⟩
  | .local _ .vmem, ⟨15, _⟩ => ⟨S5000x256, .bf16⟩
  | .local _ .vmem, ⟨16, _⟩ => ⟨S256x256, .bf16⟩
  | .local _ .vmem, ⟨17, _⟩ => ⟨S256x256, .bf16⟩
  | .local _ .vmem, ⟨18, _⟩ => ⟨S256, .f32⟩
  | .local _ .vmem, ⟨19, _⟩ => ⟨S256x16, .bf16⟩
  | .local _ .vmem, ⟨20, _⟩ => ⟨S16, .f32⟩
  | .local _ .vmem, ⟨21, _⟩ => ⟨S5000x16, .f32⟩
  | .local _ .vmem, ⟨22, _⟩ => ⟨S5000x16, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v13 : Ref sig .tc := ⟨.hbm, 48, rfl⟩
abbrev main_cst : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x16 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  slices_S512x256_S256x256_0_0 : S512x256.Slices ![0, 0] S256x256
  slices_S512x256_S256x256_256_0 : S512x256.Slices ![256, 0] S256x256
  inb_S5000x16_S5000x16_0_0 : ∀ a, (![0, 0] : Fin 2 → Nat) a + S5000x16.size a ≤ S5000x16.size a
  h_S5000x16 : 0 < S5000x16.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  shapeCasts_S5000x256_S5000x256 : S5000x256.ShapeCasts S5000x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  dot_S5000x16_S16x256_S5000x256_1_0_0_1_n_n_wf : DotDims.WF S5000x16 S16x256 S5000x256 [1] [0] [0] [1] [] []
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x16_S5000x16_1_0_0_1_n_n_wf : DotDims.WF S5000x256 S256x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .bf16 = 32 ∨ (Rect.block (s := S16x256) S16x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x256.size a ≤ S50000x256.size a
  hwx0_7 : ∀ i : grid0.Coords, EltTy.bits .bf16 = 32 ∨ (Rect.block (s := S50000x256) S5000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x256.size a ≤ S50000x256.size a
  hwx0_8 : ∀ i : grid0.Coords, EltTy.bits .f32 = 32 ∨ (Rect.block (s := S50000x256) S5000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .bf16 = 32 ∨ (Rect.block (s := S50000x256) S5000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x16.size a ≤ S256x16.size a
  hwx1_5 : ∀ i : grid1.Coords, EltTy.bits .bf16 = 32 ∨ (Rect.block (s := S256x16) S256x16.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16.size a ≤ S16.size a
  hwx1_6 : ∀ i : grid1.Coords, EltTy.bits .f32 = 32 ∨ (Rect.block (s := S16) S16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x16.size a ≤ S50000x16.size a
  hwx1_7 : ∀ i : grid1.Coords, EltTy.bits .f32 = 32 ∨ (Rect.block (s := S50000x16) S5000x16.size (cc1_transform_7 i) (hinb1_7 i)).WholeWords (EltTy.packing .f32)

variable [Facts₀]

def dot_S5000x16_S16x256_S5000x256_1_0_0_1_n_n : DotDims S5000x16 S16x256 S5000x256 where
  lhsContracting := [1]
  rhsContracting := [0]
  lhsNonContracting := [0]
  rhsNonContracting := [1]
  lhsBatch := []
  rhsBatch := []
  wf := dot_S5000x16_S16x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S5000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S5000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S5000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S16x256 : Shape := ⟨2, ![16, 256]⟩
abbrev S256 : Shape := ⟨1, ![256]⟩
abbrev S256x256 : Shape := ⟨2, ![256, 256]⟩
abbrev S512x256 : Shape := ⟨2, ![512, 256]⟩
abbrev S256x16 : Shape := ⟨2, ![256, 16]⟩
abbrev S16 : Shape := ⟨1, ![16]⟩
abbrev S50000x256 : Shape := ⟨2, ![50000, 256]⟩
abbrev S1x256 : Shape := ⟨2, ![1, 256]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S50000x512 : Shape := ⟨2, ![50000, 512]⟩
abbrev S1x16 : Shape := ⟨2, ![1, 16]⟩

abbrev nBuf : Space → Nat
  | .hbm => 60
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S16x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256x16, .f32⟩
  | .hbm, ⟨11, _⟩ => ⟨S16, .f32⟩
  | .hbm, ⟨12, _⟩ => ⟨S50000x256, .f32⟩
  | .hbm, ⟨13, _⟩ => ⟨S1x256, .f32⟩
  | .hbm, ⟨14, _⟩ => ⟨S50000x256, .f32⟩
  | .hbm, ⟨15, _⟩ => ⟨S50000x256, .f32⟩
  | .hbm, ⟨16, _⟩ => ⟨S_, .f32⟩
  | .hbm, ⟨17, _⟩ => ⟨S50000x256, .f32⟩
  | .hbm, ⟨18, _⟩ => ⟨S50000x256, .f32⟩
  | .hbm, ⟨19, _⟩ => ⟨S50000x256, .f32⟩
  | .hbm, ⟨20, _⟩ => ⟨S1x256, .f32⟩
  | .hbm, ⟨21, _⟩ => ⟨S50000x256, .f32⟩
  | .hbm, ⟨22, _⟩ => ⟨S50000x256, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x256, .f32⟩
  | .hbm, ⟨36, _⟩ => ⟨S800000x256, .f32⟩
  | .hbm, ⟨37, _⟩ => ⟨S1x256, .f32⟩
  | .hbm, ⟨38, _⟩ => ⟨S800000x256, .f32⟩
  | .hbm, ⟨39, _⟩ => ⟨S800000x256, .f32⟩
  | .hbm, ⟨40, _⟩ => ⟨S_, .f32⟩
  | .hbm, ⟨41, _⟩ => ⟨S800000x256, .f32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S50000x512, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S50000x256, .f32⟩
  | .hbm, ⟨54, _⟩ => ⟨S50000x256, .f32⟩
  | .hbm, ⟨55, _⟩ => ⟨S50000x16, .f32⟩
  | .hbm, ⟨56, _⟩ => ⟨S1x16, .f32⟩
  | .hbm, ⟨57, _⟩ => ⟨S50000x16, .f32⟩
  | .hbm, ⟨58, _⟩ => ⟨S50000x16, .f32⟩
  | .hbm, ⟨59, _⟩ => ⟨S50000x16, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  concatenates_S50000x256_S50000x256_S50000x512_d1 : Shape.Concatenates [S50000x256, S50000x256] S50000x512 1
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x16_S16x256_S50000x256_1_0_0_1_n_n_wf : DotDims.WF S50000x16 S16x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  dot_S800000x256_S256x256_S800000x256_1_0_0_1_n_n_wf : DotDims.WF S800000x256 S256x256 S800000x256 [1] [0] [0] [1] [] []
  scatter_S50000x256_S800000x1_S800000x256_1_0_0_1_wf : ScatterDims.WF S50000x256 S800000x1 S800000x256 [1] [0] [0] 1
  dot_S50000x512_S512x256_S50000x256_1_0_0_1_n_n_wf : DotDims.WF S50000x512 S512x256 S50000x256 [1] [0] [0] [1] [] []
  dot_S50000x256_S256x16_S50000x16_1_0_0_1_n_n_wf : DotDims.WF S50000x256 S256x16 S50000x16 [1] [0] [0] [1] [] []

variable [Facts₀]

def dot_S50000x16_S16x256_S50000x256_1_0_0_1_n_n : DotDims S50000x16 S16x256 S50000x256 where
  lhsContracting := [1]
  rhsContracting := [0]
  lhsNonContracting := [0]
  rhsNonContracting := [1]
  lhsBatch := []
  rhsBatch := []
  wf := dot_S50000x16_S16x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf

class Facts : Prop extends Facts₀ where

variable [Facts]
-- ==== Proof.LibLayers.lean ====
/-
  Dense layers read at an index, at the ideal values, for arrays of any number of rows.

  An affine layer `A · W + b` is printed in two spellings: on the host as a `dot_general` plus a vector
  broadcast to one row and then down the rows; in a kernel as a matrix product accumulated into zero plus the
  vector's one-row cast broadcast down the rows. Both are, entry by entry, the sum over the contracted
  coordinate of the products plus the vector's entry. The rectifier is the maximum with a zero that the host
  broadcasts from a scalar constant and a kernel splats. Every function here acts row by row, so it commutes
  with any re-indexing of the rows (taking a block of rows, or gathering rows).
-/
import Idealize.ShloMosaic.Lib.KernelVsHost
import Idealize.ShloMosaic.Lib.StackMember

noncomputable section

open scoped BigOperators

namespace Cert.Layers

open Idealize.ShloMosaic Idealize.ShloMosaic.ValueIdx

/-- A matrix of extended reals with `n` rows and `m` columns, indexed as the programs' arrays are. -/
abbrev Mat (n m : Nat) : Type := (⟨2, ![n, m]⟩ : Shape).Idx → EReal
/-- A vector of extended reals of length `m`. -/
abbrev Row (m : Nat) : Type := (⟨1, ![m]⟩ : Shape).Idx → EReal

/-- The row index of an entry of an `n × m` array, as a number below `n`. -/
abbrev rowOf {n m : Nat} (i : (⟨2, ![n, m]⟩ : Shape).Idx) : Fin n := ⟨(i 0).val, idx2_lt0 i⟩
/-- The column index of an entry of an `n × m` array, as a number below `m`. -/
abbrev colOf {n m : Nat} (i : (⟨2, ![n, m]⟩ : Shape).Idx) : Fin m := ⟨(i 1).val, idx2_lt1 i⟩

theorem ix2_rowOf_colOf {n m : Nat} (i : (⟨2, ![n, m]⟩ : Shape).Idx) : ix2 (rowOf i) (colOf i) = i := by
  funext a; match a with | ⟨0, _⟩ => rfl | ⟨1, _⟩ => rfl

/-- `A · W + b`, entry by entry. -/
def affArr {n k m : Nat} (A : Mat n k) (W : Mat k m) (b : Row m) : Mat n m :=
  fun i => (∑ q : Fin k, A (ix2 (rowOf i) q) * W (ix2 q (colOf i))) + b (ix1 (colOf i))

/-- The rectifier, entry by entry. -/
def reluArr {n m : Nat} (A : Mat n m) : Mat n m := fun i => max (A i) 0

/-- The hyperbolic tangent, entry by entry. -/
def tanhArr {n m : Nat} (A : Mat n m) : Mat n m := fun i => Ideal.tanh (A i)

/-- `H · Wa + G · Wb + b`, entry by entry: an affine layer of the rows of `H` joined with the rows of `G`. -/
def joinArr {n k m : Nat} (H G : Mat n k) (Wa Wb : Mat k m) (b : Row m) : Mat n m :=
  fun i => (∑ q : Fin k, H (ix2 (rowOf i) q) * Wa (ix2 q (colOf i)))
    + (∑ q : Fin k, G (ix2 (rowOf i) q) * Wb (ix2 q (colOf i))) + b (ix1 (colOf i))

theorem affArr_ix2 {n k m : Nat} (A : Mat n k) (W : Mat k m) (b : Row m) (r : Fin n) (j : Fin m) :
    affArr A W b (ix2 r j) = (∑ q : Fin k, A (ix2 r q) * W (ix2 q j)) + b (ix1 j) := rfl

theorem joinArr_ix2 {n k m : Nat} (H G : Mat n k) (Wa Wb : Mat k m) (b : Row m) (r : Fin n) (j : Fin m) :
    joinArr H G Wa Wb b (ix2 r j) = (∑ q : Fin k, H (ix2 r q) * Wa (ix2 q j)) + (∑ q : Fin k, G (ix2 r q) * Wb (ix2 q j)) + b (ix1 j) := rfl

/-! ## The host's spelling -/

/-- A vector broadcast to one row and then down `n` rows reads, at (r, j), the vector at `j`. -/
theorem bias_host_apply {n m : Nat} (h1 : (⟨1, ![m]⟩ : Shape).BroadcastsInDim ⟨2, ![1, m]⟩ ![1])
    (h2 : (⟨2, ![1, m]⟩ : Shape).BroadcastsInDim ⟨2, ![n, m]⟩ ![0, 1]) (b : Row m) (r : Fin n) (j : Fin m) :
    broadcastInDim ⟨2, ![n, m]⟩ ![0, 1] h2 (broadcastInDim ⟨2, ![1, m]⟩ ![1] h1 b) (ix2 r j) = b (ix1 j) := by
  rw [broadcastInDim_oneRow_apply]
  refine broadcastInDim_apply ![1] h1 b (ix2 (0 : Fin 1) j) (ix1 j) ?_
  intro a
  match a with
  | ⟨0, _⟩ =>
    show j.val = if m = 1 then 0 else j.val
    split
    · have := j.isLt; omega
    · rfl

/-- The host's affine layer. -/
theorem host_aff {n k m : Nat} {φ₁ φ₂ : FTy} (D : DotDims ⟨2, ![n, k]⟩ ⟨2, ![k, m]⟩ ⟨2, ![n, m]⟩) (hD : D = DotDims.plain n k m)
    (prec : Option ContractPrecision) (A : FVec Ideal ⟨2, ![n, k]⟩ φ₁) (W : FVec Ideal ⟨2, ![k, m]⟩ φ₂)
    (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) :
    (addf (Host.dotGeneral D prec A W) (broadcastInDim ⟨2, ![n, m]⟩ ![0, 1] h2 (broadcastInDim ⟨2, ![1, m]⟩ ![1] h1 b))
      : FVec Ideal ⟨2, ![n, m]⟩ .f32) = affArr A W b := by
  subst hD
  funext i
  obtain ⟨r, j, rfl⟩ : ∃ (r : Fin n) (j : Fin m), i = ix2 r j := ⟨i 0, i 1, eq_ix2 i⟩
  rw [addf_apply, StackMember.dotGeneral_plain_apply, bias_host_apply]
  rfl

/-- The host's rectifier: the maximum with a zero broadcast from a scalar constant. -/
theorem host_relu {n m : Nat} (h : (⟨0, ![]⟩ : Shape).BroadcastsInDim ⟨2, ![n, m]⟩ ![]) (A : FVec Ideal ⟨2, ![n, m]⟩ .f32) :
    maximumf A (broadcastInDim ⟨2, ![n, m]⟩ ![] h (constant ⟨0, ![]⟩ .f32 0x00000000#32)) = reluArr A := by
  funext i
  show max (A i) (Ideal.ofBits .f32 0x00000000#32) = max (A i) 0
  rw [Ideal.ofBits_zero_f32]

/-! ## A kernel's spelling -/

/-- A kernel's affine layer: the product accumulated into a zero splat, plus the vector's one-row cast broadcast
    down the rows. -/
theorem kernel_aff {n k m : Nat} {φ₁ φ₂ : FTy} (D : DotDims ⟨2, ![n, k]⟩ ⟨2, ![k, m]⟩ ⟨2, ![n, m]⟩) (hD : D = DotDims.plain n k m)
    (prec : Option ContractPrecision) (A : FVec Ideal ⟨2, ![n, k]⟩ φ₁) (W : FVec Ideal ⟨2, ![k, m]⟩ φ₂)
    (b : FVec Ideal ⟨1, ![m]⟩ .f32)
    (hs : (⟨1, ![m]⟩ : Shape).ShapeCasts ⟨2, ![1, m]⟩) (hb : (⟨2, ![1, m]⟩ : Shape).Broadcasts ⟨2, ![n, m]⟩) :
    (addf (matmul D prec A W (constant ⟨2, ![n, m]⟩ .f32 0x00000000#32)) (broadcastTo ⟨2, ![n, m]⟩ (shapeCast ⟨2, ![1, m]⟩ b hs) hb)
      : FVec Ideal ⟨2, ![n, m]⟩ .f32) = affArr A W b := by
  subst hD
  rw [matmul_zero_eq_dotGeneral]
  funext i
  obtain ⟨r, j, rfl⟩ : ∃ (r : Fin n) (j : Fin m), i = ix2 r j := ⟨i 0, i 1, eq_ix2 i⟩
  rw [addf_apply, StackMember.dotGeneral_plain_apply]
  have e1 := broadcastTo_apply (shapeCast ⟨2, ![1, m]⟩ b hs) hb (ix2 r j) (ix2 (0 : Fin 1) j) (by
    intro a
    match a with
    | ⟨0, _⟩ => rfl
    | ⟨1, _⟩ =>
      show j.val = if m = 1 then 0 else j.val
      split
      · have := j.isLt; omega
      · rfl)
  have e2 := shapeCast_apply b hs (ix2 (0 : Fin 1) j) (ix1 j) (by
    rw [Shape.rowMajor_val_two, Shape.rowMajor_val_one]; show j.val = 0 * m + j.val; omega)
  rw [e1, e2]
  rfl

/-- A kernel's rectifier: the maximum with a splat of the zero scalar. -/
theorem kernel_relu {n m : Nat} (A : FVec Ideal ⟨2, ![n, m]⟩ .f32) :
    maximumf A (broadcast ⟨2, ![n, m]⟩ (Scalar.ofBits (F := Ideal) .f32 0x00000000#32)) = reluArr A := by
  funext i
  show max (A i) (Ideal.ofBits .f32 0x00000000#32) = max (A i) 0
  rw [Ideal.ofBits_zero_f32]

/-- A kernel's joined layer: two products accumulated into zero splats, added, plus the vector. -/
theorem kernel_join {n k m : Nat} {φ₁ φ₂ : FTy} (D : DotDims ⟨2, ![n, k]⟩ ⟨2, ![k, m]⟩ ⟨2, ![n, m]⟩) (hD : D = DotDims.plain n k m)
    (prec : Option ContractPrecision) (H G : FVec Ideal ⟨2, ![n, k]⟩ φ₁) (Wa Wb : FVec Ideal ⟨2, ![k, m]⟩ φ₂)
    (b : FVec Ideal ⟨1, ![m]⟩ .f32)
    (hs : (⟨1, ![m]⟩ : Shape).ShapeCasts ⟨2, ![1, m]⟩) (hb : (⟨2, ![1, m]⟩ : Shape).Broadcasts ⟨2, ![n, m]⟩) :
    (addf (addf (matmul D prec H Wa (constant ⟨2, ![n, m]⟩ .f32 0x00000000#32)) (matmul D prec G Wb (constant ⟨2, ![n, m]⟩ .f32 0x00000000#32)))
      (broadcastTo ⟨2, ![n, m]⟩ (shapeCast ⟨2, ![1, m]⟩ b hs) hb) : FVec Ideal ⟨2, ![n, m]⟩ .f32) = joinArr H G Wa Wb b := by
  subst hD
  rw [matmul_zero_eq_dotGeneral, matmul_zero_eq_dotGeneral]
  funext i
  obtain ⟨r, j, rfl⟩ : ∃ (r : Fin n) (j : Fin m), i = ix2 r j := ⟨i 0, i 1, eq_ix2 i⟩
  rw [addf_apply, addf_apply, StackMember.dotGeneral_plain_apply, StackMember.dotGeneral_plain_apply]
  have e1 := broadcastTo_apply (shapeCast ⟨2, ![1, m]⟩ b hs) hb (ix2 r j) (ix2 (0 : Fin 1) j) (by
    intro a
    match a with
    | ⟨0, _⟩ => rfl
    | ⟨1, _⟩ =>
      show j.val = if m = 1 then 0 else j.val
      split
      · have := j.isLt; omega
      · rfl)
  have e2 := shapeCast_apply b hs (ix2 (0 : Fin 1) j) (ix1 j) (by
    rw [Shape.rowMajor_val_two, Shape.rowMajor_val_one]; show j.val = 0 * m + j.val; omega)
  rw [e1, e2]
  rfl

/-! ## Acting row by row -/

/-- An affine layer of re-indexed rows is the re-indexed affine layer: `ρ` sends each row of the small array
    to a row of the large one. -/
theorem affArr_rows {n n' k m : Nat} (A : Mat n k) (W : Mat k m) (b : Row m) (ρ : Fin n' → Fin n) :
    affArr (fun i : (⟨2, ![n', k]⟩ : Shape).Idx => A (ix2 (ρ (rowOf i)) (colOf i))) W b
      = fun i : (⟨2, ![n', m]⟩ : Shape).Idx => affArr A W b (ix2 (ρ (rowOf i)) (colOf i)) := rfl

theorem reluArr_rows {n n' m : Nat} (A : Mat n m) (ρ : Fin n' → Fin n) :
    reluArr (fun i : (⟨2, ![n', m]⟩ : Shape).Idx => A (ix2 (ρ (rowOf i)) (colOf i)))
      = fun i : (⟨2, ![n', m]⟩ : Shape).Idx => reluArr A (ix2 (ρ (rowOf i)) (colOf i)) := rfl

theorem tanhArr_rows {n n' m : Nat} (A : Mat n m) (ρ : Fin n' → Fin n) :
    tanhArr (fun i : (⟨2, ![n', m]⟩ : Shape).Idx => A (ix2 (ρ (rowOf i)) (colOf i)))
      = fun i : (⟨2, ![n', m]⟩ : Shape).Idx => tanhArr A (ix2 (ρ (rowOf i)) (colOf i)) := rfl

theorem joinArr_rows {n n' k m : Nat} (H G : Mat n k) (Wa Wb : Mat k m) (b : Row m) (ρ : Fin n' → Fin n) :
    joinArr (fun i : (⟨2, ![n', k]⟩ : Shape).Idx => H (ix2 (ρ (rowOf i)) (colOf i)))
        (fun i : (⟨2, ![n', k]⟩ : Shape).Idx => G (ix2 (ρ (rowOf i)) (colOf i))) Wa Wb b
      = fun i : (⟨2, ![n', m]⟩ : Shape).Idx => joinArr H G Wa Wb b (ix2 (ρ (rowOf i)) (colOf i)) := rfl

/-! ## The hyperbolic tangent, and the joined layer on the host -/

theorem kernel_tanh {n m : Nat} (A : FVec Ideal ⟨2, ![n, m]⟩ .f32) : tanh A = tanhArr A := rfl

theorem host_tanh {n m : Nat} (A : FVec Ideal ⟨2, ![n, m]⟩ .f32) : Host.tanh A = tanhArr A := rfl

/-- A sum over 512 joined coordinates is the sum over the first 256 plus the sum over the last 256. -/
theorem sum_join (f : Fin 512 → EReal) :
    ∑ k : Fin 512, f k = (∑ q : Fin 256, f ⟨q.val, by omega⟩) + ∑ q : Fin 256, f ⟨256 + q.val, by omega⟩ := by
  have h := Fin.sum_univ_add (a := 256) (b := 256) (fun k : Fin (256 + 256) => f ⟨k.val, by have := k.isLt; omega⟩)
  refine h.trans (congrArg₂ (· + ·) rfl (Finset.sum_congr rfl fun q _ => congrArg f (Fin.ext ?_)))
  show 256 + q.val = 256 + q.val
  rfl

/-- The first 256 rows of a 512-row matrix. -/
def topHalf {m : Nat} (P : Mat 512 m) : Mat 256 m := fun i => P (ix2 ⟨(i 0).val, by have := idx2_lt0 i; omega⟩ (colOf i))
/-- The last 256 rows of a 512-row matrix. -/
def botHalf {m : Nat} (P : Mat 512 m) : Mat 256 m := fun i => P (ix2 ⟨256 + (i 0).val, by have := idx2_lt0 i; omega⟩ (colOf i))

/-- The host's joined layer: the rows of `H` and of `G` joined side by side, times a 512-row matrix, plus a vector,
    is the sum of the two halves' products plus the vector. -/
theorem host_join {n m : Nat} (D : DotDims ⟨2, ![n, 512]⟩ ⟨2, ![512, m]⟩ ⟨2, ![n, m]⟩) (hD : D = DotDims.plain n 512 m)
    (prec : Option ContractPrecision) (H G : FVec Ideal ⟨2, ![n, 256]⟩ .f32) (P : FVec Ideal ⟨2, ![512, m]⟩ .f32)
    (b : FVec Ideal ⟨1, ![m]⟩ .f32)
    (hc : Shape.Concatenates [(⟨2, ![n, 256]⟩ : Shape), ⟨2, ![n, 256]⟩] ⟨2, ![n, 512]⟩ 1)
    (h1 : (⟨1, ![m]⟩ : Shape).BroadcastsInDim ⟨2, ![1, m]⟩ ![1])
    (h2 : (⟨2, ![1, m]⟩ : Shape).BroadcastsInDim ⟨2, ![n, m]⟩ ![0, 1]) :
    (addf (Host.dotGeneral D prec (concatenate ⟨2, ![n, 512]⟩ 1 [⟨⟨2, ![n, 256]⟩, H⟩, ⟨⟨2, ![n, 256]⟩, G⟩] hc) P)
      (broadcastInDim ⟨2, ![n, m]⟩ ![0, 1] h2 (broadcastInDim ⟨2, ![1, m]⟩ ![1] h1 b)) : FVec Ideal ⟨2, ![n, m]⟩ .f32)
      = joinArr H G (topHalf P) (botHalf P) b := by
  subst hD
  funext i
  obtain ⟨r, j, rfl⟩ : ∃ (r : Fin n) (j : Fin m), i = ix2 r j := ⟨i 0, i 1, eq_ix2 i⟩
  rw [addf_apply, StackMember.dotGeneral_plain_apply, bias_host_apply, joinArr_ix2, sum_join]
  refine congrArg₂ (· + ·) (congrArg₂ (· + ·) (Finset.sum_congr rfl fun q _ => ?_) (Finset.sum_congr rfl fun q _ => ?_)) rfl
  · refine congrArg₂ (· * ·) ?_ rfl
    exact concatenate_pair_apply_left (t := ⟨2, ![n, 512]⟩) (s₁ := ⟨2, ![n, 256]⟩) (s₂ := ⟨2, ![n, 256]⟩) (1 : Fin 2) H G hc
      (ix2 r (⟨q.val, by have := q.isLt; omega⟩ : Fin 512)) rfl (ix2 r q) (fun b => by
      match b with
      | ⟨0, _⟩ => rfl
      | ⟨1, _⟩ => rfl)
  · refine congrArg₂ (· * ·) ?_ rfl
    exact concatenate_pair_apply_right (t := ⟨2, ![n, 512]⟩) (s₁ := ⟨2, ![n, 256]⟩) (s₂ := ⟨2, ![n, 256]⟩) (1 : Fin 2) H G hc
      (ix2 r (⟨256 + q.val, by have := q.isLt; omega⟩ : Fin 512)) rfl rfl (ix2 r q) (fun b hb => by
      match b with
      | ⟨0, _⟩ => rfl
      | ⟨1, _⟩ => exact absurd rfl hb) (by show q.val + 256 = 256 + q.val; omega)

/-- The first 256 rows, as the host slices them. -/
theorem slice_top {m : Nat} (P : Mat 512 m) (h : (⟨2, ![512, m]⟩ : Shape).Slices ![0, 0] ⟨2, ![256, m]⟩) :
    extractStridedSlice ⟨2, ![256, m]⟩ ![0, 0] P h = topHalf P := by
  funext j
  refine extractStridedSlice_apply ![0, 0] P h j _ (fun a => ?_)
  match a with
  | ⟨0, _⟩ => show (j 0).val = 0 + (j 0).val; omega
  | ⟨1, _⟩ => show (j 1).val = 0 + (j 1).val; omega

/-- The last 256 rows, as the host slices them. -/
theorem slice_bot {m : Nat} (P : Mat 512 m) (h : (⟨2, ![512, m]⟩ : Shape).Slices ![256, 0] ⟨2, ![256, m]⟩) :
    extractStridedSlice ⟨2, ![256, m]⟩ ![256, 0] P h = botHalf P := by
  funext j
  refine extractStridedSlice_apply ![256, 0] P h j _ (fun a => ?_)
  match a with
  | ⟨0, _⟩ => show 256 + (j 0).val = 256 + (j 0).val; rfl
  | ⟨1, _⟩ => show (j 1).val = 0 + (j 1).val; omega

end Cert.Layers

end
-- ==== Proof.Model.lean ====
/-
  The network the two programs compute, as functions of whole arrays over the extended reals.

  A node's hidden row is an affine layer, the rectifier and a second affine layer of its input row; its
  message row is the rectifier of an affine layer of its hidden row; its output row is the hyperbolic
  tangent of an affine layer of the rectifier of the joined layer of its hidden row and its row of aggregated
  messages. Each acts row by row, so each commutes with any re-indexing of the rows.
-/
import proofs.«427188_j10995116278155_3_alg».proof.Proof.LibLayers

noncomputable section

namespace Cert.Model

open Idealize.ShloMosaic Idealize.ShloMosaic.ValueIdx Cert.Layers

/-- The hidden rows of `n` nodes: an affine layer, the rectifier, a second affine layer. -/
def hid {n : Nat} (X : Mat n 16) (W1 : Mat 16 256) (b1 : Row 256) (W2 : Mat 256 256) (b2 : Row 256) : Mat n 256 :=
  affArr (reluArr (affArr X W1 b1)) W2 b2

/-- The message rows of `n` nodes: the rectifier of an affine layer of their hidden rows. -/
def msg {n : Nat} (H : Mat n 256) (CW : Mat 256 256) (cb : Row 256) : Mat n 256 :=
  reluArr (affArr H CW cb)

/-- The output rows of `n` nodes from their hidden rows and their aggregated-message rows. -/
def out {n : Nat} (H G : Mat n 256) (Wa Wb : Mat 256 256) (b1 : Row 256) (W2 : Mat 256 16) (b2 : Row 16) : Mat n 16 :=
  tanhArr (affArr (reluArr (joinArr H G Wa Wb b1)) W2 b2)

theorem hid_rows {n n' : Nat} (X : Mat n 16) (W1 : Mat 16 256) (b1 : Row 256) (W2 : Mat 256 256) (b2 : Row 256) (ρ : Fin n' → Fin n) :
    hid (fun i : (⟨2, ![n', 16]⟩ : Shape).Idx => X (ix2 (ρ (rowOf i)) (colOf i))) W1 b1 W2 b2
      = fun i : (⟨2, ![n', 256]⟩ : Shape).Idx => hid X W1 b1 W2 b2 (ix2 (ρ (rowOf i)) (colOf i)) := rfl

theorem msg_rows {n n' : Nat} (H : Mat n 256) (CW : Mat 256 256) (cb : Row 256) (ρ : Fin n' → Fin n) :
    msg (fun i : (⟨2, ![n', 256]⟩ : Shape).Idx => H (ix2 (ρ (rowOf i)) (colOf i))) CW cb
      = fun i : (⟨2, ![n', 256]⟩ : Shape).Idx => msg H CW cb (ix2 (ρ (rowOf i)) (colOf i)) := rfl

theorem out_rows {n n' : Nat} (H G : Mat n 256) (Wa Wb : Mat 256 256) (b1 : Row 256) (W2 : Mat 256 16) (b2 : Row 16) (ρ : Fin n' → Fin n) :
    out (fun i : (⟨2, ![n', 256]⟩ : Shape).Idx => H (ix2 (ρ (rowOf i)) (colOf i)))
        (fun i : (⟨2, ![n', 256]⟩ : Shape).Idx => G (ix2 (ρ (rowOf i)) (colOf i))) Wa Wb b1 W2 b2
      = fun i : (⟨2, ![n', 16]⟩ : Shape).Idx => out H G Wa Wb b1 W2 b2 (ix2 (ρ (rowOf i)) (colOf i)) := rfl

end Cert.Model

end
-- ==== Proof.Reg0Value.lean ====
/-
  What the first kernel launch leaves in its two output arrays, as functions of the arrays the launch finds.

  The launch walks ten blocks of 5000 node rows. At each block the body reads the block's input rows and the
  whole weight and bias arrays, and stores, for every node of the block, its hidden row (an affine layer, the
  rectifier, a second affine layer) into the first output and the rectifier of an affine layer of that hidden
  row into the second. The body acts row by row, so what it stores for a block of rows is the block of what
  the same layers give on the whole array; the ten blocks tile the 50000 rows.
-/
import proofs.«427188_j10995116278155_3_alg».proof.Proof.Gen.KernelIdeal.Frame
import proofs.«427188_j10995116278155_3_alg».proof.Proof.Model

set_option maxRecDepth 16384

noncomputable section

namespace Cert.KernelIdeal.Reg0

open Cert.KernelIdeal Cert.KernelIdeal.Gen Cert.Layers Cert.Model
open Idealize.ShloMosaic Idealize.ShloMosaic.TcCoe Idealize.ShloMosaic.ValueIdx
open Idealize.SL Idealize.SL.Sem
open Idealize.ShloMosaic.Pipeline (Dat Cfg Window)

/-! ## The body's two stored values -/

/-- A change of float format is the identity on extended reals. -/
theorem truncf_id {s : Shape} {φ ψ : FTy} (a : FVec Ideal s φ) (h : ψ.bits < φ.bits) : (truncf ψ a h : FVec Ideal s ψ) = a := rfl

theorem dot16 : dot_S5000x16_S16x256_S5000x256_1_0_0_1_n_n = DotDims.plain 5000 16 256 := rfl
theorem dot256 : dot_S5000x256_S256x256_S5000x256_1_0_0_1_n_n = DotDims.plain 5000 256 256 := rfl

/-- The first stored value is the block's hidden rows. -/
theorem pay1_eq (x0 : Vec Ideal S5000x16 .f32) (w1 : Vec Ideal S16x256 .bf16) (b1 : Vec Ideal S256 .f32)
    (w2 : Vec Ideal S256x256 .bf16) (b2 : Vec Ideal S256 .f32) :
    k0_pay1 (F := Ideal) x0 w1 b1 w2 b2 = hid x0 w1 b1 w2 b2 := by
  unfold k0_pay1 hid
  simp only [truncf_id, shapeCast_self]
  rw [kernel_aff _ dot16, kernel_relu, kernel_aff _ dot256]

/-- The second stored value is the block's message rows. -/
theorem pay2_eq (x0 : Vec Ideal S5000x16 .f32) (w1 : Vec Ideal S16x256 .bf16) (b1 : Vec Ideal S256 .f32)
    (w2 : Vec Ideal S256x256 .bf16) (b2 : Vec Ideal S256 .f32) (cw : Vec Ideal S256x256 .bf16) (cb : Vec Ideal S256 .f32) :
    k0_pay2 (F := Ideal) x0 w1 b1 w2 b2 cw cb = msg (hid x0 w1 b1 w2 b2) cw cb := by
  unfold k0_pay2 msg
  simp only [shapeCast_self]
  rw [pay1_eq, kernel_aff _ dot256, kernel_relu]

/-! ## The blocks the body reads and writes -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node-row windows sit at block `t`, the weight and bias windows at
    block 0 throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ t.val < 10 :=
  (by decide +kernel : ∀ t : Fin grid0.N, _)

/-- Row `r` of block `t` is row `5000 t + r` of the array. -/
def blkRow (t : Fin cfg0.N) (r : Fin 5000) : Fin 50000 :=
  ⟨t.val * 5000 + r.val, by have := (idx_facts t).2.2.2.2.2.2.2.2.2.2.2.2.2.2.2; have := r.isLt; omega⟩

/-- The input rows of block `t`. -/
theorem xblk_eq (c : Dev nD) (t : Fin cfg0.N) :
    (iblk0 V c 0 t : Mat 5000 16) = fun i => (V c main_arg0 : Mat 50000 16) (ix2 (blkRow t (rowOf i)) (colOf i)) := by
  obtain ⟨e0, e1, -⟩ := idx_facts t
  funext y
  show V c main_arg0 (((cfg0.win 0).blk t).view.emb y) = V c main_arg0 _
  refine congrArg _ (funext fun a => Fin.ext ?_)
  match a with
  | ⟨0, _⟩ => show win0_0.index t (0 : Fin 2) * 5000 + 1 * (y 0).val = t.val * 5000 + (y 0).val; omega
  | ⟨1, _⟩ => show win0_0.index t (1 : Fin 2) * 16 + 1 * (y 1).val = (y 1).val; omega

theorem w1blk_eq (c : Dev nD) (t : Fin cfg0.N) : (iblk0 V c 1 t : Mat 16 256) = V c main_v0 := by
  obtain ⟨-, -, e0, e1, -⟩ := idx_facts t
  funext y
  show V c main_v0 (((cfg0.win 1).blk t).view.emb y) = V c main_v0 y
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 256 + 1 * (y 1).val = (y 1).val; omega

theorem b1blk_eq (c : Dev nD) (t : Fin cfg0.N) : (iblk0 V c 2 t : Row 256) = V c main_arg3 := by
  obtain ⟨-, -, -, -, e0, -⟩ := idx_facts t
  funext y
  show V c main_arg3 (((cfg0.win 2).blk t).view.emb y) = V c main_arg3 y
  refine congrArg _ (funext fun a => Fin.ext ?_)
  match a with
  | ⟨0, _⟩ => show win0_2.index t (0 : Fin 1) * 256 + 1 * (y 0).val = (y 0).val; omega

theorem w2blk_eq (c : Dev nD) (t : Fin cfg0.N) : (iblk0 V c 3 t : Mat 256 256) = V c main_v1 := by
  obtain ⟨-, -, -, -, -, e0, e1, -⟩ := idx_facts t
  funext y
  show V c main_v1 (((cfg0.win 3).blk t).view.emb y) = V c main_v1 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem b2blk_eq (c : Dev nD) (t : Fin cfg0.N) : (iblk0 V c 4 t : Row 256) = V c main_arg5 := by
  obtain ⟨-, -, -, -, -, -, -, e0, -⟩ := idx_facts t
  funext y
  show V c main_arg5 (((cfg0.win 4).blk t).view.emb y) = V c main_arg5 y
  refine congrArg _ (funext fun a => Fin.ext ?_)
  match a with
  | ⟨0, _⟩ => show win0_4.index t (0 : Fin 1) * 256 + 1 * (y 0).val = (y 0).val; omega

theorem cwblk_eq (c : Dev nD) (t : Fin cfg0.N) : (iblk0 V c 5 t : Mat 256 256) = V c main_v2 := by
  obtain ⟨-, -, -, -, -, -, -, -, e0, e1, -⟩ := idx_facts t
  funext y
  show V c main_v2 (((cfg0.win 5).blk t).view.emb y) = V c main_v2 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem cbblk_eq (c : Dev nD) (t : Fin cfg0.N) : (iblk0 V c 6 t : Row 256) = V c main_arg7 := by
  obtain ⟨-, -, -, -, -, -, -, -, -, -, e0, -⟩ := idx_facts t
  funext y
  show V c main_arg7 (((cfg0.win 6).blk t).view.emb y) = V c main_arg7 y
  refine congrArg _ (funext fun a => Fin.ext ?_)
  match a with
  | ⟨0, _⟩ => show win0_6.index t (0 : Fin 1) * 256 + 1 * (y 0).val = (y 0).val; omega

/-- The hidden rows of all the nodes, from the arrays the launch finds. -/
abbrev hidOf (c : Dev nD) : Mat 50000 256 :=
  hid (V c main_arg0) (V c main_v0) (V c main_arg3) (V c main_v1) (V c main_arg5)

/-- The message rows of all the nodes, from the arrays the launch finds. -/
abbrev msgOf (c : Dev nD) : Mat 50000 256 := msg (hidOf V c) (V c main_v2) (V c main_arg7)

/-- What block `t` writes back to the first output is block `t` of the hidden rows of all the nodes. -/
theorem flushed7 (c : Dev nD) (t : Fin cfg0.N) :
    (dat0 V c).flushed 7 t = ((cfg0.win 7).blk t).view.read (Elt Ideal) (hidOf V c) := by
  show (cfg0.win 7).cut (grid0.coords t) ((dat0 V c).after 7 t) = _
  rw [after0_7]
  unfold out0_7
  rw [View.canon_unit_zero hz2]
  simp only [View.ld_unit_zero (S := S5000x16) hz2, View.ld_unit_zero (S := S16x256) hz2, View.ld_unit_zero (S := S256) hz1,
    View.ld_unit_zero (S := S256x256) hz2]
  rw [pay1_eq, xblk_eq, w1blk_eq, b1blk_eq, w2blk_eq, b2blk_eq, hid_rows]
  obtain ⟨-, -, -, -, -, -, -, -, -, -, -, e0, e1, -⟩ := idx_facts t
  funext y
  show hid _ _ _ _ _ (ix2 (blkRow t (rowOf y)) (colOf y)) = hid _ _ _ _ _ (((cfg0.win 7).blk t).view.emb y)
  refine congrArg _ (funext fun a => Fin.ext ?_)
  match a with
  | ⟨0, _⟩ => show t.val * 5000 + (y 0).val = win0_7.index t (0 : Fin 2) * 5000 + 1 * (y 0).val; omega
  | ⟨1, _⟩ => show (y 1).val = win0_7.index t (1 : Fin 2) * 256 + 1 * (y 1).val; omega

/-- What block `t` writes back to the second output is block `t` of the message rows of all the nodes. -/
theorem flushed8 (c : Dev nD) (t : Fin cfg0.N) :
    (dat0 V c).flushed 8 t = ((cfg0.win 8).blk t).view.read (Elt Ideal) (msgOf V c) := by
  show (cfg0.win 8).cut (grid0.coords t) ((dat0 V c).after 8 t) = _
  rw [after0_8]
  unfold out0_8
  rw [View.canon_unit_zero hz2]
  simp only [View.ld_unit_zero (S := S5000x16) hz2, View.ld_unit_zero (S := S16x256) hz2, View.ld_unit_zero (S := S256) hz1,
    View.ld_unit_zero (S := S256x256) hz2]
  rw [pay2_eq, xblk_eq, w1blk_eq, b1blk_eq, w2blk_eq, b2blk_eq, cwblk_eq, cbblk_eq, hid_rows, msg_rows]
  obtain ⟨-, -, -, -, -, -, -, -, -, -, -, -, -, e0, e1, -⟩ := idx_facts t
  funext y
  show msg _ _ _ (ix2 (blkRow t (rowOf y)) (colOf y)) = msg _ _ _ (((cfg0.win 8).blk t).view.emb y)
  refine congrArg _ (funext fun a => Fin.ext ?_)
  match a with
  | ⟨0, _⟩ => show t.val * 5000 + (y 0).val = win0_8.index t (0 : Fin 2) * 5000 + 1 * (y 0).val; omega
  | ⟨1, _⟩ => show (y 1).val = win0_8.index t (1 : Fin 2) * 256 + 1 * (y 1).val; omega

/-! ## The ten blocks tile the rows -/

theorem mem_blk7 (t : Fin cfg0.N) (i : S50000x256.Idx) :
    i ∈ ((cfg0.win 7).blk t).view.set ↔ ∀ a : Fin 2, win0_7.index t a * S5000x256.size a ≤ (i a).val ∧ (i a).val < win0_7.index t a * S5000x256.size a + S5000x256.size a := by
  show i ∈ ((View.whole main_v8_0).slice (win0_7.rect t)).set ↔ _
  rw [View.set_slice_whole, Rect.mem_set_unit]
  exact Iff.rfl

theorem mem_blk8 (t : Fin cfg0.N) (i : S50000x256.Idx) :
    i ∈ ((cfg0.win 8).blk t).view.set ↔ ∀ a : Fin 2, win0_8.index t a * S5000x256.size a ≤ (i a).val ∧ (i a).val < win0_8.index t a * S5000x256.size a + S5000x256.size a := by
  show i ∈ ((View.whole main_v8_1).slice (win0_8.rect t)).set ↔ _
  rw [View.set_slice_whole, Rect.mem_set_unit]
  exact Iff.rfl

/-- The block that holds row `r` is block `r / 5000`. -/
def blkOf (i : S50000x256.Idx) : Fin cfg0.N :=
  ⟨(i 0).val / 5000, lt_of_lt_of_eq (by have : (i 0).val < 50000 := (i 0).isLt; omega) N_0.symm⟩

theorem cover7 (i : S50000x256.Idx) : ∃ t : Fin cfg0.N, (cfg0.win 7).flush t = true ∧ i ∈ ((cfg0.win 7).blk t).view.set := by
  refine ⟨blkOf i, flush0_7 _, ?_⟩
  obtain ⟨-, -, -, -, -, -, -, -, -, -, -, e0, e1, -⟩ := idx_facts (blkOf i)
  have ht : (blkOf i).val = (i 0).val / 5000 := rfl
  have hi0 : (i 0).val < 50000 := (i 0).isLt
  have hi1 : (i 1).val < 256 := (i 1).isLt
  rw [mem_blk7]
  intro a
  match a with
  | ⟨0, _⟩ => show win0_7.index (blkOf i) (0 : Fin 2) * 5000 ≤ (i 0).val ∧ (i 0).val < win0_7.index (blkOf i) (0 : Fin 2) * 5000 + 5000; omega
  | ⟨1, _⟩ => show win0_7.index (blkOf i) (1 : Fin 2) * 256 ≤ (i 1).val ∧ (i 1).val < win0_7.index (blkOf i) (1 : Fin 2) * 256 + 256; omega

theorem cover8 (i : S50000x256.Idx) : ∃ t : Fin cfg0.N, (cfg0.win 8).flush t = true ∧ i ∈ ((cfg0.win 8).blk t).view.set := by
  refine ⟨blkOf i, flush0_8 _, ?_⟩
  obtain ⟨-, -, -, -, -, -, -, -, -, -, -, -, -, e0, e1, -⟩ := idx_facts (blkOf i)
  have ht : (blkOf i).val = (i 0).val / 5000 := rfl
  have hi0 : (i 0).val < 50000 := (i 0).isLt
  have hi1 : (i 1).val < 256 := (i 1).isLt
  rw [mem_blk8]
  intro a
  match a with
  | ⟨0, _⟩ => show win0_8.index (blkOf i) (0 : Fin 2) * 5000 ≤ (i 0).val ∧ (i 0).val < win0_8.index (blkOf i) (0 : Fin 2) * 5000 + 5000; omega
  | ⟨1, _⟩ => show win0_8.index (blkOf i) (1 : Fin 2) * 256 ≤ (i 1).val ∧ (i 1).val < win0_8.index (blkOf i) (1 : Fin 2) * 256 + 256; omega

/-- THE FIRST OUTPUT after the launch: the hidden rows of all the nodes. -/
theorem arr7 (c : Dev nD) : (dat0 V c).arrAt 7 cfg0.N = hidOf V c :=
  (dat0 V c).arrAt_eq_of_cover 7 (hidOf V c) (fun t _ => flushed7 V c t) (cover7)

/-- THE SECOND OUTPUT after the launch: the message rows of all the nodes. -/
theorem arr8 (c : Dev nD) : (dat0 V c).arrAt 8 cfg0.N = msgOf V c :=
  (dat0 V c).arrAt_eq_of_cover 8 (msgOf V c) (fun t _ => flushed8 V c t) (cover8)

end Cert.KernelIdeal.Reg0

end
-- ==== Proof.Reg1Value.lean ====
/-
  What the second kernel launch leaves in its output array, as a function of the arrays the launch finds.

  The launch walks ten blocks of 5000 node rows. At each block the body reads the block's hidden rows and
  aggregated-message rows and the whole weight and bias arrays, and stores, for every node of the block, the
  hyperbolic tangent of an affine layer of the rectifier of the joined layer (the hidden row times the first
  half of the weights plus the aggregated row times the second half, plus the bias). The body acts row by
  row, so what it stores for a block of rows is the block of what the same layers give on the whole arrays;
  the ten blocks tile the 50000 rows.
-/
import proofs.«427188_j10995116278155_3_alg».proof.Proof.Gen.KernelIdeal.Frame
import proofs.«427188_j10995116278155_3_alg».proof.Proof.Model

set_option maxRecDepth 16384

noncomputable section

namespace Cert.KernelIdeal.Reg1

open Cert.KernelIdeal Cert.KernelIdeal.Gen Cert.Layers Cert.Model
open Idealize.ShloMosaic Idealize.ShloMosaic.TcCoe Idealize.ShloMosaic.ValueIdx
open Idealize.SL Idealize.SL.Sem
open Idealize.ShloMosaic.Pipeline (Dat Cfg Window)

/-! ## The body's stored value -/

/-- A change of float format is the identity on extended reals. -/
theorem truncf_id {s : Shape} {φ ψ : FTy} (a : FVec Ideal s φ) (h : ψ.bits < φ.bits) : (truncf ψ a h : FVec Ideal s ψ) = a := rfl

theorem dot256 : dot_S5000x256_S256x256_S5000x256_1_0_0_1_n_n = DotDims.plain 5000 256 256 := rfl
theorem dot16 : dot_S5000x256_S256x16_S5000x16_1_0_0_1_n_n = DotDims.plain 5000 256 16 := rfl

/-- The stored value is the block's output rows. -/
theorem pay1_eq (h0 : Vec Ideal S5000x256 .bf16) (g0 : Vec Ideal S5000x256 .bf16) (wa : Vec Ideal S256x256 .bf16)
    (wb : Vec Ideal S256x256 .bf16) (b1 : Vec Ideal S256 .f32) (w2 : Vec Ideal S256x16 .bf16) (b2 : Vec Ideal S16 .f32) :
    k1_pay1 (F := Ideal) h0 g0 wa wb b1 w2 b2 = out h0 g0 wa wb b1 w2 b2 := by
  unfold k1_pay1 out
  simp only [truncf_id, shapeCast_self]
  rw [kernel_join _ dot256, kernel_relu, kernel_aff _ dot16, kernel_tanh]

/-! ## The blocks the body reads and writes -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node-row windows sit at block `t`, the weight and bias windows at
    block 0 throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ t.val < 10 :=
  (by decide +kernel : ∀ t : Fin grid1.N, _)

/-- Row `r` of block `t` is row `5000 t + r` of the array. -/
def blkRow (t : Fin cfg1.N) (r : Fin 5000) : Fin 50000 :=
  ⟨t.val * 5000 + r.val, by have := (idx_facts t).2.2.2.2.2.2.2.2.2.2.2.2.2.2; have := r.isLt; omega⟩

/-- The hidden rows of block `t`. -/
theorem hblk_eq (c : Dev nD) (t : Fin cfg1.N) :
    (iblk1 V c 0 t : Mat 5000 256) = fun i => (V c main_v8_0 : Mat 50000 256) (ix2 (blkRow t (rowOf i)) (colOf i)) := by
  obtain ⟨e0, e1, -⟩ := idx_facts t
  funext y
  show V c main_v8_0 (((cfg1.win 0).blk t).view.emb y) = V c main_v8_0 _
  refine congrArg _ (funext fun a => Fin.ext ?_)
  match a with
  | ⟨0, _⟩ => show win1_0.index t (0 : Fin 2) * 5000 + 1 * (y 0).val = t.val * 5000 + (y 0).val; omega
  | ⟨1, _⟩ => show win1_0.index t (1 : Fin 2) * 256 + 1 * (y 1).val = (y 1).val; omega

/-- The aggregated-message rows of block `t`. -/
theorem gblk_eq (c : Dev nD) (t : Fin cfg1.N) :
    (iblk1 V c 1 t : Mat 5000 256) = fun i => (V c main_v17 : Mat 50000 256) (ix2 (blkRow t (rowOf i)) (colOf i)) := by
  obtain ⟨-, -, e0, e1, -⟩ := idx_facts t
  funext y
  show V c main_v17 (((cfg1.win 1).blk t).view.emb y) = V c main_v17 _
  refine congrArg _ (funext fun a => Fin.ext ?_)
  match a with
  | ⟨0, _⟩ => show win1_1.index t (0 : Fin 2) * 5000 + 1 * (y 0).val = t.val * 5000 + (y 0).val; omega
  | ⟨1, _⟩ => show win1_1.index t (1 : Fin 2) * 256 + 1 * (y 1).val = (y 1).val; omega

theorem wablk_eq (c : Dev nD) (t : Fin cfg1.N) : (iblk1 V c 2 t : Mat 256 256) = V c main_v4 := by
  obtain ⟨-, -, -, -, e0, e1, -⟩ := idx_facts t
  funext y
  show V c main_v4 (((cfg1.win 2).blk t).view.emb y) = V c main_v4 y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

theorem wbblk_eq (c : Dev nD) (t : Fin cfg1.N) : (iblk1 V c 3 t : Mat 256 256) = V c main_v6 := by
  obtain ⟨-, -, -, -, -, -, e0, e1, -⟩ := idx_facts t
  funext y
  show V c main_v6 (((cfg1.win 3).blk t).view.emb y) = V c main_v6 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem b1blk_eq (c : Dev nD) (t : Fin cfg1.N) : (iblk1 V c 4 t : Row 256) = V c main_arg9 := by
  obtain ⟨-, -, -, -, -, -, -, -, e0, -⟩ := idx_facts t
  funext y
  show V c main_arg9 (((cfg1.win 4).blk t).view.emb y) = V c main_arg9 y
  refine congrArg _ (funext fun a => Fin.ext ?_)
  match a with
  | ⟨0, _⟩ => show win1_4.index t (0 : Fin 1) * 256 + 1 * (y 0).val = (y 0).val; omega

theorem w2blk_eq (c : Dev nD) (t : Fin cfg1.N) : (iblk1 V c 5 t : Mat 256 16) = V c main_v7 := by
  obtain ⟨-, -, -, -, -, -, -, -, -, e0, e1, -⟩ := idx_facts t
  funext y
  show V c main_v7 (((cfg1.win 5).blk t).view.emb y) = V c main_v7 y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 16 + 1 * (y 1).val = (y 1).val; omega

theorem b2blk_eq (c : Dev nD) (t : Fin cfg1.N) : (iblk1 V c 6 t : Row 16) = V c main_arg11 := by
  obtain ⟨-, -, -, -, -, -, -, -, -, -, -, e0, -⟩ := idx_facts t
  funext y
  show V c main_arg11 (((cfg1.win 6).blk t).view.emb y) = V c main_arg11 y
  refine congrArg _ (funext fun a => Fin.ext ?_)
  match a with
  | ⟨0, _⟩ => show win1_6.index t (0 : Fin 1) * 16 + 1 * (y 0).val = (y 0).val; omega

/-- The output rows of all the nodes, from the arrays the launch finds. -/
abbrev outOf (c : Dev nD) : Mat 50000 16 :=
  out (V c main_v8_0) (V c main_v17) (V c main_v4) (V c main_v6) (V c main_arg9) (V c main_v7) (V c main_arg11)

/-- What block `t` writes back is block `t` of the output rows of all the nodes. -/
theorem flushed7 (c : Dev nD) (t : Fin cfg1.N) :
    (dat1 V c).flushed 7 t = ((cfg1.win 7).blk t).view.read (Elt Ideal) (outOf V c) := by
  show (cfg1.win 7).cut (grid1.coords t) ((dat1 V c).after 7 t) = _
  rw [after1_7]
  unfold out1_7
  rw [View.canon_unit_zero hz2]
  simp only [View.ld_unit_zero (S := S5000x256) hz2, View.ld_unit_zero (S := S256x256) hz2, View.ld_unit_zero (S := S256) hz1,
    View.ld_unit_zero (S := S256x16) hz2, View.ld_unit_zero (S := S16) hz1]
  rw [pay1_eq, hblk_eq, gblk_eq, wablk_eq, wbblk_eq, b1blk_eq, w2blk_eq, b2blk_eq, out_rows]
  obtain ⟨-, -, -, -, -, -, -, -, -, -, -, -, e0, e1, -⟩ := idx_facts t
  funext y
  show out _ _ _ _ _ _ _ (ix2 (blkRow t (rowOf y)) (colOf y)) = out _ _ _ _ _ _ _ (((cfg1.win 7).blk t).view.emb y)
  refine congrArg _ (funext fun a => Fin.ext ?_)
  match a with
  | ⟨0, _⟩ => show t.val * 5000 + (y 0).val = win1_7.index t (0 : Fin 2) * 5000 + 1 * (y 0).val; omega
  | ⟨1, _⟩ => show (y 1).val = win1_7.index t (1 : Fin 2) * 16 + 1 * (y 1).val; omega

/-! ## The ten blocks tile the rows -/

theorem mem_blk7 (t : Fin cfg1.N) (i : S50000x16.Idx) :
    i ∈ ((cfg1.win 7).blk t).view.set ↔ ∀ a : Fin 2, win1_7.index t a * S5000x16.size a ≤ (i a).val ∧ (i a).val < win1_7.index t a * S5000x16.size a + S5000x16.size a := by
  show i ∈ ((View.whole main_v18).slice (win1_7.rect t)).set ↔ _
  rw [View.set_slice_whole, Rect.mem_set_unit]
  exact Iff.rfl

/-- The block that holds row `r` is block `r / 5000`. -/
def blkOf (i : S50000x16.Idx) : Fin cfg1.N :=
  ⟨(i 0).val / 5000, lt_of_lt_of_eq (by have : (i 0).val < 50000 := (i 0).isLt; omega) N_1.symm⟩

theorem cover7 (i : S50000x16.Idx) : ∃ t : Fin cfg1.N, (cfg1.win 7).flush t = true ∧ i ∈ ((cfg1.win 7).blk t).view.set := by
  refine ⟨blkOf i, flush1_7 _, ?_⟩
  obtain ⟨-, -, -, -, -, -, -, -, -, -, -, -, e0, e1, -⟩ := idx_facts (blkOf i)
  have ht : (blkOf i).val = (i 0).val / 5000 := rfl
  have hi0 : (i 0).val < 50000 := (i 0).isLt
  have hi1 : (i 1).val < 16 := (i 1).isLt
  rw [mem_blk7]
  intro a
  match a with
  | ⟨0, _⟩ => show win1_7.index (blkOf i) (0 : Fin 2) * 5000 ≤ (i 0).val ∧ (i 0).val < win1_7.index (blkOf i) (0 : Fin 2) * 5000 + 5000; omega
  | ⟨1, _⟩ => show win1_7.index (blkOf i) (1 : Fin 2) * 16 ≤ (i 1).val ∧ (i 1).val < win1_7.index (blkOf i) (1 : Fin 2) * 16 + 16; omega

/-- THE OUTPUT after the launch: the output rows of all the nodes. -/
theorem arr7 (c : Dev nD) : (dat1 V c).arrAt 7 cfg1.N = outOf V c :=
  (dat1 V c).arrAt_eq_of_cover 7 (outOf V c) (fun t _ => flushed7 V c t) (cover7)

end Cert.KernelIdeal.Reg1

end
-- ==== Proof.KValue.lean ====
/-
  The contents of the kernel program's buffers between its launches, at the ideal values.

  Before the first launch the host re-formats the weights (the identity on extended reals) and cuts the
  512-row weight matrix into its two halves. Between the launches it cuts the edge array into source and
  destination indices, takes the rows of the second output of the first launch at the wrapped source indices
  (filling a row whose index is out of range), and adds the taken rows into zeros at the destination indices.
  Each stretch of host operations is read off as a pure function of the contents it starts from.
-/
import proofs.«427188_j10995116278155_3_alg».proof.Proof.KRun
import proofs.«427188_j10995116278155_3_alg».proof.Proof.Reg0Value
import proofs.«427188_j10995116278155_3_alg».proof.Proof.Reg1Value
import Idealize.ShloMosaic.Lib.StableHlo.Run

set_option maxRecDepth 16384

noncomputable section

namespace Cert.KernelIdeal.KValue

open Cert.KernelIdeal Cert.KernelIdeal.Gen Cert.Layers Cert.Model
open Idealize.ShloMosaic Idealize.ShloMosaic.TcCoe Idealize.ShloMosaic.ValueIdx Idealize.ShloMosaic.StableHlo
open Idealize.SL Idealize.SL.Sem

/-! ## The pure functions of the host stretches -/

/-- The source indices: the first row of the edge array. -/
def srcOf (E : IVec S2x800000 32) : IVec S800000 32 :=
  shapeCast S800000 (extractStridedSlice S1x800000 ![0, 0] E slices_S2x800000_S1x800000_0_0) shapeCasts_S1x800000_S800000

/-- The destination indices: the second row of the edge array. -/
def dstOf (E : IVec S2x800000 32) : IVec S800000 32 :=
  shapeCast S800000 (extractStridedSlice S1x800000 ![1, 0] E slices_S2x800000_S1x800000_1_0) shapeCasts_S1x800000_S800000

/-- A source index, wrapped: `s + 50000` when `s` is negative. -/
def wrapOf (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The wrapped source indices as a column of start indices. -/
def startOf (s : IVec S800000 32) : IVec S800000x1 32 :=
  broadcastInDim S800000x1 ![0] bcast_S800000_S800000x1_0 (wrapOf s)

/-- Which edges have their wrapped source index in `[0, 49999]`. -/
def inRangeOf (s : IVec S800000 32) : IVec S800000 1 :=
  Host.reduce IntOp.andi
    (andi (cmpi .sge (startOf s) (broadcastInDim S800000x1 ![] bcast_S_S800000x1 (constantI S_ 32 0#32)))
      (cmpi .sle (startOf s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of `Y` taken at the wrapped source indices, a row whose index is out of range filled. -/
def takeOf (s : IVec S800000 32) (Y : FVec Ideal S50000x256 .f32) : FVec Ideal S800000x256 .f32 :=
  select (broadcastInDim S800000x256 ![0] bcast_S800000_S800000x256_0 (inRangeOf s))
    (Host.gather gather_S50000x256_S800000x1_S800000x256_1_0_n_n_0_1_1256 Y (startOf s))
    (broadcastInDim S800000x256 ![] bcast_S_S800000x256 (constant S_ .f32 0x7FC00000#32))

/-- The taken rows added into zeros at the destination indices. -/
def aggOf (d : IVec S800000 32) (T : FVec Ideal S800000x256 .f32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d) T

/-! ## Each stretch read off -/

theorem s0_main_v0 (V : Valuation τ sig (Elt Ideal)) :
    StableHlo.after hostOps0 V (Proc.devRef .tc main_v0) = (V (Proc.devRef .tc main_arg2) : FVec Ideal S16x256 .f32) := by
  after_results_simp; rfl
theorem s0_main_v1 (V : Valuation τ sig (Elt Ideal)) :
    StableHlo.after hostOps0 V (Proc.devRef .tc main_v1) = (V (Proc.devRef .tc main_arg4) : FVec Ideal S256x256 .f32) := by
  after_results_simp; rfl
theorem s0_main_v2 (V : Valuation τ sig (Elt Ideal)) :
    StableHlo.after hostOps0 V (Proc.devRef .tc main_v2) = (V (Proc.devRef .tc main_arg6) : FVec Ideal S256x256 .f32) := by
  after_results_simp; rfl
theorem s0_main_v4 (V : Valuation τ sig (Elt Ideal)) :
    StableHlo.after hostOps0 V (Proc.devRef .tc main_v4)
      = extractStridedSlice S256x256 ![0, 0] (V (Proc.devRef .tc main_arg8) : FVec Ideal S512x256 .f32) slices_S512x256_S256x256_0_0 := by
  after_results_simp; rfl
theorem s0_main_v6 (V : Valuation τ sig (Elt Ideal)) :
    StableHlo.after hostOps0 V (Proc.devRef .tc main_v6)
      = extractStridedSlice S256x256 ![256, 0] (V (Proc.devRef .tc main_arg8) : FVec Ideal S512x256 .f32) slices_S512x256_S256x256_256_0 := by
  after_results_simp; rfl
theorem s0_main_v7 (V : Valuation τ sig (Elt Ideal)) :
    StableHlo.after hostOps0 V (Proc.devRef .tc main_v7) = (V (Proc.devRef .tc main_arg10) : FVec Ideal S256x16 .f32) := by
  after_results_simp; rfl
theorem s0_main_arg0 (V : Valuation τ sig (Elt Ideal)) : StableHlo.after hostOps0 V (Proc.devRef .tc main_arg0) = V (Proc.devRef .tc main_arg0) := by
  after_results_simp
theorem s0_main_arg1 (V : Valuation τ sig (Elt Ideal)) : StableHlo.after hostOps0 V (Proc.devRef .tc main_arg1) = V (Proc.devRef .tc main_arg1) := by
  after_results_simp
theorem s0_main_arg3 (V : Valuation τ sig (Elt Ideal)) : StableHlo.after hostOps0 V (Proc.devRef .tc main_arg3) = V (Proc.devRef .tc main_arg3) := by
  after_results_simp
theorem s0_main_arg5 (V : Valuation τ sig (Elt Ideal)) : StableHlo.after hostOps0 V (Proc.devRef .tc main_arg5) = V (Proc.devRef .tc main_arg5) := by
  after_results_simp
theorem s0_main_arg7 (V : Valuation τ sig (Elt Ideal)) : StableHlo.after hostOps0 V (Proc.devRef .tc main_arg7) = V (Proc.devRef .tc main_arg7) := by
  after_results_simp

theorem s1_main_v10 (V : Valuation τ sig (Elt Ideal)) :
    StableHlo.after hostOps1 V (Proc.devRef .tc main_v10) = srcOf (V (Proc.devRef .tc main_arg1)) := by
  after_results_simp; rfl
theorem s1_main_v12 (V : Valuation τ sig (Elt Ideal)) :
    StableHlo.after hostOps1 V (Proc.devRef .tc main_v12) = dstOf (V (Proc.devRef .tc main_arg1)) := by
  after_results_simp; rfl
theorem s1_main_v8_0 (V : Valuation τ sig (Elt Ideal)) : StableHlo.after hostOps1 V (Proc.devRef .tc main_v8_0) = V (Proc.devRef .tc main_v8_0) := by
  after_results_simp
theorem s1_main_v8_1 (V : Valuation τ sig (Elt Ideal)) : StableHlo.after hostOps1 V (Proc.devRef .tc main_v8_1) = V (Proc.devRef .tc main_v8_1) := by
  after_results_simp
theorem s1_main_v4 (V : Valuation τ sig (Elt Ideal)) : StableHlo.after hostOps1 V (Proc.devRef .tc main_v4) = V (Proc.devRef .tc main_v4) := by
  after_results_simp
theorem s1_main_v6 (V : Valuation τ sig (Elt Ideal)) : StableHlo.after hostOps1 V (Proc.devRef .tc main_v6) = V (Proc.devRef .tc main_v6) := by
  after_results_simp
theorem s1_main_v7 (V : Valuation τ sig (Elt Ideal)) : StableHlo.after hostOps1 V (Proc.devRef .tc main_v7) = V (Proc.devRef .tc main_v7) := by
  after_results_simp

/-- Running one list of operations and then another is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- The take's operations in three runs: the wrapped start indices; the range test; the take and its fill. -/
abbrev opsA : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] Facts₀.bcast_S_S800000),
    StableHlo.TRef.binary (.of main_v10 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] Facts₀.bcast_S_S800000),
    StableHlo.TRef.binary (.of main_v10 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v10 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] Facts₀.bcast_S800000_S800000x1_0) ]
abbrev opsB : List (HloOp τ sig (Elt Ideal)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] Facts₀.bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] Facts₀.bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] Facts₀.bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v Facts₀.reducesTo_S800000x1_S800000_d1 Facts₀.h_S_) ]
abbrev opsC : List (HloOp τ sig (Elt Ideal)) :=
  [ StableHlo.TRef.binary (.of main_v8_1 : StableHlo.TRef sig ⟨S50000x256, .f32⟩) (.of main_call0_v5 : StableHlo.TRef sig ⟨S800000x1, .i32⟩) (.of main_call0_v13 : StableHlo.TRef sig ⟨S800000x256, .f32⟩) (fun x i => Host.gather gather_S50000x256_S800000x1_S800000x256_1_0_n_n_0_1_1256 x i),
    StableHlo.TRef.unary (.of main_call0_v12 : StableHlo.TRef sig ⟨S800000, .i1⟩) (.of main_call0_v14 : StableHlo.TRef sig ⟨S800000x256, .i1⟩) (broadcastInDim S800000x256 ![0] Facts₀.bcast_S800000_S800000x256_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x256, .f32⟩) (broadcastInDim S800000x256 ![] Facts₀.bcast_S_S800000x256),
    StableHlo.TRef.ternary (.of main_call0_v14 : StableHlo.TRef sig ⟨S800000x256, .i1⟩) (.of main_call0_v13 : StableHlo.TRef sig ⟨S800000x256, .f32⟩) (.of main_call0_v15 : StableHlo.TRef sig ⟨S800000x256, .f32⟩) (.of main_v13 : StableHlo.TRef sig ⟨S800000x256, .f32⟩) select ]

theorem ops_split : (hostOps1_1 : List (HloOp τ sig (Elt Ideal))) = opsA ++ (opsB ++ opsC) := rfl

theorem sA_v5 (V : Valuation τ sig (Elt Ideal)) :
    StableHlo.after opsA V (Proc.devRef .tc main_call0_v5) = startOf (V (Proc.devRef .tc main_v10)) := by
  after_results_simp
  unfold startOf wrapOf
  simp only [TRef.toBuf, TRef.ofBuf, cast_eq]
theorem sA_v8_1 (V : Valuation τ sig (Elt Ideal)) : StableHlo.after opsA V (Proc.devRef .tc main_v8_1) = V (Proc.devRef .tc main_v8_1) := by
  after_results_simp

/-- The range test as a function of the column of start indices. -/
def inRangeAt (i5 : IVec S800000x1 32) : IVec S800000 1 :=
  Host.reduce IntOp.andi
    (andi (cmpi .sge i5 (broadcastInDim S800000x1 ![] bcast_S_S800000x1 (constantI S_ 32 0#32)))
      (cmpi .sle i5 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

theorem sB_v12 (V : Valuation τ sig (Elt Ideal)) :
    StableHlo.after opsB V (Proc.devRef .tc main_call0_v12) = inRangeAt (V (Proc.devRef .tc main_call0_v5)) := by
  after_results_simp
  unfold inRangeAt
  simp only [TRef.toBuf, TRef.ofBuf, cast_eq]
theorem sB_v5 (V : Valuation τ sig (Elt Ideal)) : StableHlo.after opsB V (Proc.devRef .tc main_call0_v5) = V (Proc.devRef .tc main_call0_v5) := by
  after_results_simp
theorem sB_v8_1 (V : Valuation τ sig (Elt Ideal)) : StableHlo.after opsB V (Proc.devRef .tc main_v8_1) = V (Proc.devRef .tc main_v8_1) := by
  after_results_simp

/-- The take and its fill as a function of the range test, the rows and the start indices. -/
def takeAt (ok : IVec S800000 1) (Y : FVec Ideal S50000x256 .f32) (i5 : IVec S800000x1 32) : FVec Ideal S800000x256 .f32 :=
  select (broadcastInDim S800000x256 ![0] bcast_S800000_S800000x256_0 ok)
    (Host.gather gather_S50000x256_S800000x1_S800000x256_1_0_n_n_0_1_1256 Y i5)
    (broadcastInDim S800000x256 ![] bcast_S_S800000x256 (constant S_ .f32 0x7FC00000#32))

theorem sC_v13 (V : Valuation τ sig (Elt Ideal)) :
    StableHlo.after opsC V (Proc.devRef .tc main_v13)
      = takeAt (V (Proc.devRef .tc main_call0_v12)) (V (Proc.devRef .tc main_v8_1)) (V (Proc.devRef .tc main_call0_v5)) := by
  after_results_simp
  unfold takeAt
  simp only [TRef.toBuf, TRef.ofBuf, cast_eq]

theorem takeOf_eq_takeAt (s : IVec S800000 32) (Y : FVec Ideal S50000x256 .f32) :
    takeOf s Y = takeAt (inRangeAt (startOf s)) Y (startOf s) := rfl

theorem s11_main_v13 (V : Valuation τ sig (Elt Ideal)) :
    StableHlo.after hostOps1_1 V (Proc.devRef .tc main_v13) = takeOf (V (Proc.devRef .tc main_v10)) (V (Proc.devRef .tc main_v8_1)) := by
  rw [ops_split, after_append, after_append, sC_v13, sB_v12, sB_v8_1, sB_v5, sA_v5, sA_v8_1, takeOf_eq_takeAt]
theorem s11_main_v12 (V : Valuation τ sig (Elt Ideal)) : StableHlo.after hostOps1_1 V (Proc.devRef .tc main_v12) = V (Proc.devRef .tc main_v12) := by
  after_results_simp
theorem s11_main_v8_0 (V : Valuation τ sig (Elt Ideal)) : StableHlo.after hostOps1_1 V (Proc.devRef .tc main_v8_0) = V (Proc.devRef .tc main_v8_0) := by
  after_results_simp
theorem s11_main_v4 (V : Valuation τ sig (Elt Ideal)) : StableHlo.after hostOps1_1 V (Proc.devRef .tc main_v4) = V (Proc.devRef .tc main_v4) := by
  after_results_simp
theorem s11_main_v6 (V : Valuation τ sig (Elt Ideal)) : StableHlo.after hostOps1_1 V (Proc.devRef .tc main_v6) = V (Proc.devRef .tc main_v6) := by
  after_results_simp
theorem s11_main_v7 (V : Valuation τ sig (Elt Ideal)) : StableHlo.after hostOps1_1 V (Proc.devRef .tc main_v7) = V (Proc.devRef .tc main_v7) := by
  after_results_simp

theorem s12_main_v17 (V : Valuation τ sig (Elt Ideal)) :
    StableHlo.after hostOps1_2 V (Proc.devRef .tc main_v17)
      = truncf .bf16 (aggOf (V (Proc.devRef .tc main_v12)) (V (Proc.devRef .tc main_v13))) bitsLt_bf16_f32 := by
  after_results_simp
  unfold aggOf
  rfl
theorem s12_main_v8_0 (V : Valuation τ sig (Elt Ideal)) : StableHlo.after hostOps1_2 V (Proc.devRef .tc main_v8_0) = V (Proc.devRef .tc main_v8_0) := by
  after_results_simp
theorem s12_main_v4 (V : Valuation τ sig (Elt Ideal)) : StableHlo.after hostOps1_2 V (Proc.devRef .tc main_v4) = V (Proc.devRef .tc main_v4) := by
  after_results_simp
theorem s12_main_v6 (V : Valuation τ sig (Elt Ideal)) : StableHlo.after hostOps1_2 V (Proc.devRef .tc main_v6) = V (Proc.devRef .tc main_v6) := by
  after_results_simp
theorem s12_main_v7 (V : Valuation τ sig (Elt Ideal)) : StableHlo.after hostOps1_2 V (Proc.devRef .tc main_v7) = V (Proc.devRef .tc main_v7) := by
  after_results_simp

theorem s0_main_arg9 (V : Valuation τ sig (Elt Ideal)) : StableHlo.after hostOps0 V (Proc.devRef .tc main_arg9) = V (Proc.devRef .tc main_arg9) := by
  after_results_simp
theorem s0_main_arg11 (V : Valuation τ sig (Elt Ideal)) : StableHlo.after hostOps0 V (Proc.devRef .tc main_arg11) = V (Proc.devRef .tc main_arg11) := by
  after_results_simp
theorem s1_main_arg9 (V : Valuation τ sig (Elt Ideal)) : StableHlo.after hostOps1 V (Proc.devRef .tc main_arg9) = V (Proc.devRef .tc main_arg9) := by
  after_results_simp
theorem s1_main_arg11 (V : Valuation τ sig (Elt Ideal)) : StableHlo.after hostOps1 V (Proc.devRef .tc main_arg11) = V (Proc.devRef .tc main_arg11) := by
  after_results_simp
theorem s11_main_arg9 (V : Valuation τ sig (Elt Ideal)) : StableHlo.after hostOps1_1 V (Proc.devRef .tc main_arg9) = V (Proc.devRef .tc main_arg9) := by
  after_results_simp
theorem s11_main_arg11 (V : Valuation τ sig (Elt Ideal)) : StableHlo.after hostOps1_1 V (Proc.devRef .tc main_arg11) = V (Proc.devRef .tc main_arg11) := by
  after_results_simp
theorem s12_main_arg9 (V : Valuation τ sig (Elt Ideal)) : StableHlo.after hostOps1_2 V (Proc.devRef .tc main_arg9) = V (Proc.devRef .tc main_arg9) := by
  after_results_simp
theorem s12_main_arg11 (V : Valuation τ sig (Elt Ideal)) : StableHlo.after hostOps1_2 V (Proc.devRef .tc main_arg11) = V (Proc.devRef .tc main_arg11) := by
  after_results_simp

end Cert.KernelIdeal.KValue

end
-- ==== Proof.KResult.lean ====
/-
  The kernel program's result, as the network of whole arrays of its launch contents.

  The buffer contents are followed from the launch through the host stretches and the two kernel launches:
  the first launch's outputs are the hidden rows and the message rows of all the nodes, the host stretch
  between the launches aggregates the message rows taken at the source indices, and the second launch's
  output is the output rows from the hidden rows and the aggregated rows.
-/
import proofs.«427188_j10995116278155_3_alg».proof.Proof.KValue

set_option maxRecDepth 16384

noncomputable section

namespace Cert.KernelIdeal.KResult

open Cert.KernelIdeal Cert.KernelIdeal.Gen Cert.KernelIdeal.KValue Cert.Layers Cert.Model
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The hidden rows of all the nodes, from the launch contents. -/
def hidK (c : Dev nD) : Mat 50000 256 :=
  hid (m ((c : Thread nD τ).loc main_arg0)) (m ((c : Thread nD τ).loc main_arg2)) (m ((c : Thread nD τ).loc main_arg3)) (m ((c : Thread nD τ).loc main_arg4)) (m ((c : Thread nD τ).loc main_arg5))

/-- The message rows of all the nodes, from the launch contents. -/
def msgK (c : Dev nD) : Mat 50000 256 := msg (hidK m c) (m ((c : Thread nD τ).loc main_arg6)) (m ((c : Thread nD τ).loc main_arg7))

/-- The aggregated rows as the kernel program computes them, from the launch contents. -/
def aggK (c : Dev nD) : FVec Ideal S50000x256 .f32 :=
  aggOf (dstOf (m ((c : Thread nD τ).loc main_arg1))) (takeOf (srcOf (m ((c : Thread nD τ).loc main_arg1))) (msgK m c))

/-! ## At the first launch's entry -/

theorem V1_arg0 (c : Dev nD) : V1 m ρ c main_arg0 = (m ((c : Thread nD τ).loc main_arg0)) := by
  show StableHlo.after hostOps0 (W0 m ρ c) (Proc.devRef .tc main_arg0) = _
  rw [s0_main_arg0]
theorem V1_v0 (c : Dev nD) : V1 m ρ c main_v0 = (m ((c : Thread nD τ).loc main_arg2)) := by
  show StableHlo.after hostOps0 (W0 m ρ c) (Proc.devRef .tc main_v0) = _
  rw [s0_main_v0]
theorem V1_arg3 (c : Dev nD) : V1 m ρ c main_arg3 = (m ((c : Thread nD τ).loc main_arg3)) := by
  show StableHlo.after hostOps0 (W0 m ρ c) (Proc.devRef .tc main_arg3) = _
  rw [s0_main_arg3]
theorem V1_v1 (c : Dev nD) : V1 m ρ c main_v1 = (m ((c : Thread nD τ).loc main_arg4)) := by
  show StableHlo.after hostOps0 (W0 m ρ c) (Proc.devRef .tc main_v1) = _
  rw [s0_main_v1]
theorem V1_arg5 (c : Dev nD) : V1 m ρ c main_arg5 = (m ((c : Thread nD τ).loc main_arg5)) := by
  show StableHlo.after hostOps0 (W0 m ρ c) (Proc.devRef .tc main_arg5) = _
  rw [s0_main_arg5]
theorem V1_v2 (c : Dev nD) : V1 m ρ c main_v2 = (m ((c : Thread nD τ).loc main_arg6)) := by
  show StableHlo.after hostOps0 (W0 m ρ c) (Proc.devRef .tc main_v2) = _
  rw [s0_main_v2]
theorem V1_arg7 (c : Dev nD) : V1 m ρ c main_arg7 = (m ((c : Thread nD τ).loc main_arg7)) := by
  show StableHlo.after hostOps0 (W0 m ρ c) (Proc.devRef .tc main_arg7) = _
  rw [s0_main_arg7]

theorem hidOf_eq (c : Dev nD) : Reg0.hidOf (V1 m ρ) c = hidK m c := by
  show hid (V1 m ρ c main_arg0) (V1 m ρ c main_v0) (V1 m ρ c main_arg3) (V1 m ρ c main_v1) (V1 m ρ c main_arg5) = _
  rw [V1_arg0, V1_v0, V1_arg3, V1_v1, V1_arg5]; rfl

theorem msgOf_eq (c : Dev nD) : Reg0.msgOf (V1 m ρ) c = msgK m c := by
  show msg (Reg0.hidOf (V1 m ρ) c) (V1 m ρ c main_v2) (V1 m ρ c main_arg7) = _
  rw [hidOf_eq, V1_v2, V1_arg7]; rfl

/-! ## At the first launch's exit -/

theorem W2_v8_0 (c : Dev nD) : W2 m ρ c (Proc.devRef .tc main_v8_0) = hidK m c :=
  (W2_arr m ρ c 7).trans ((Reg0.arr7 (V1 m ρ) c).trans (hidOf_eq m ρ c))

theorem W2_v8_1 (c : Dev nD) : W2 m ρ c (Proc.devRef .tc main_v8_1) = msgK m c :=
  (W2_arr m ρ c 8).trans ((Reg0.arr8 (V1 m ρ) c).trans (msgOf_eq m ρ c))

theorem W2_arg1 (c : Dev nD) : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  rw [s0_main_arg1]

theorem W2_v4 (c : Dev nD) : W2 m ρ c (Proc.devRef .tc main_v4) = topHalf (m ((c : Thread nD τ).loc main_arg8)) := by
  rw [W2_of_ne m ρ c main_v4 (by decide)]
  show StableHlo.after hostOps0 (W0 m ρ c) (Proc.devRef .tc main_v4) = _
  rw [s0_main_v4]
  exact slice_top _ _

theorem W2_v6 (c : Dev nD) : W2 m ρ c (Proc.devRef .tc main_v6) = botHalf (m ((c : Thread nD τ).loc main_arg8)) := by
  rw [W2_of_ne m ρ c main_v6 (by decide)]
  show StableHlo.after hostOps0 (W0 m ρ c) (Proc.devRef .tc main_v6) = _
  rw [s0_main_v6]
  exact slice_bot _ _

theorem W2_v7 (c : Dev nD) : W2 m ρ c (Proc.devRef .tc main_v7) = (m ((c : Thread nD τ).loc main_arg10)) := by
  rw [W2_of_ne m ρ c main_v7 (by decide)]
  show StableHlo.after hostOps0 (W0 m ρ c) (Proc.devRef .tc main_v7) = _
  rw [s0_main_v7]

/-! ## At the second launch's entry -/

theorem V5_v8_0 (c : Dev nD) : V5 m ρ c main_v8_0 = hidK m c := by
  show StableHlo.after hostOps1_2 (W4 m ρ c) (Proc.devRef .tc main_v8_0) = _
  rw [s12_main_v8_0]
  show StableHlo.after hostOps1_1 (W3 m ρ c) (Proc.devRef .tc main_v8_0) = _
  rw [s11_main_v8_0]
  show StableHlo.after hostOps1 (W2 m ρ c) (Proc.devRef .tc main_v8_0) = _
  rw [s1_main_v8_0]
  exact W2_v8_0 m ρ c

theorem V5_v4 (c : Dev nD) : V5 m ρ c main_v4 = topHalf (m ((c : Thread nD τ).loc main_arg8)) := by
  show StableHlo.after hostOps1_2 (W4 m ρ c) (Proc.devRef .tc main_v4) = _
  rw [s12_main_v4]
  show StableHlo.after hostOps1_1 (W3 m ρ c) (Proc.devRef .tc main_v4) = _
  rw [s11_main_v4]
  show StableHlo.after hostOps1 (W2 m ρ c) (Proc.devRef .tc main_v4) = _
  rw [s1_main_v4]
  exact W2_v4 m ρ c

theorem V5_v6 (c : Dev nD) : V5 m ρ c main_v6 = botHalf (m ((c : Thread nD τ).loc main_arg8)) := by
  show StableHlo.after hostOps1_2 (W4 m ρ c) (Proc.devRef .tc main_v6) = _
  rw [s12_main_v6]
  show StableHlo.after hostOps1_1 (W3 m ρ c) (Proc.devRef .tc main_v6) = _
  rw [s11_main_v6]
  show StableHlo.after hostOps1 (W2 m ρ c) (Proc.devRef .tc main_v6) = _
  rw [s1_main_v6]
  exact W2_v6 m ρ c

theorem V5_v7 (c : Dev nD) : V5 m ρ c main_v7 = (m ((c : Thread nD τ).loc main_arg10)) := by
  show StableHlo.after hostOps1_2 (W4 m ρ c) (Proc.devRef .tc main_v7) = _
  rw [s12_main_v7]
  show StableHlo.after hostOps1_1 (W3 m ρ c) (Proc.devRef .tc main_v7) = _
  rw [s11_main_v7]
  show StableHlo.after hostOps1 (W2 m ρ c) (Proc.devRef .tc main_v7) = _
  rw [s1_main_v7]
  exact W2_v7 m ρ c

theorem V5_arg9 (c : Dev nD) : V5 m ρ c main_arg9 = (m ((c : Thread nD τ).loc main_arg9)) := by
  show StableHlo.after hostOps1_2 (W4 m ρ c) (Proc.devRef .tc main_arg9) = _
  rw [s12_main_arg9]
  show StableHlo.after hostOps1_1 (W3 m ρ c) (Proc.devRef .tc main_arg9) = _
  rw [s11_main_arg9]
  show StableHlo.after hostOps1 (W2 m ρ c) (Proc.devRef .tc main_arg9) = _
  rw [s1_main_arg9, W2_of_ne m ρ c main_arg9 (by decide)]
  show StableHlo.after hostOps0 (W0 m ρ c) (Proc.devRef .tc main_arg9) = _
  rw [s0_main_arg9]

theorem V5_arg11 (c : Dev nD) : V5 m ρ c main_arg11 = (m ((c : Thread nD τ).loc main_arg11)) := by
  show StableHlo.after hostOps1_2 (W4 m ρ c) (Proc.devRef .tc main_arg11) = _
  rw [s12_main_arg11]
  show StableHlo.after hostOps1_1 (W3 m ρ c) (Proc.devRef .tc main_arg11) = _
  rw [s11_main_arg11]
  show StableHlo.after hostOps1 (W2 m ρ c) (Proc.devRef .tc main_arg11) = _
  rw [s1_main_arg11, W2_of_ne m ρ c main_arg11 (by decide)]
  show StableHlo.after hostOps0 (W0 m ρ c) (Proc.devRef .tc main_arg11) = _
  rw [s0_main_arg11]

theorem V5_v17 (c : Dev nD) : V5 m ρ c main_v17 = aggK m c := by
  show StableHlo.after hostOps1_2 (W4 m ρ c) (Proc.devRef .tc main_v17) = _
  rw [s12_main_v17, Reg0.truncf_id]
  show aggOf (StableHlo.after hostOps1_1 (W3 m ρ c) (Proc.devRef .tc main_v12)) (StableHlo.after hostOps1_1 (W3 m ρ c) (Proc.devRef .tc main_v13)) = _
  rw [s11_main_v12, s11_main_v13]
  show aggOf (StableHlo.after hostOps1 (W2 m ρ c) (Proc.devRef .tc main_v12))
    (takeOf (StableHlo.after hostOps1 (W2 m ρ c) (Proc.devRef .tc main_v10)) (StableHlo.after hostOps1 (W2 m ρ c) (Proc.devRef .tc main_v8_1))) = _
  rw [s1_main_v12, s1_main_v10, s1_main_v8_1, W2_arg1, W2_v8_1]
  rfl

/-- THE KERNEL PROGRAM'S RESULT: the last boundary's contents of the result buffer. -/
theorem result_eq (c : Dev nD) : W6 m ρ c (Proc.devRef .tc main_v18)
    = out (hidK m c) (aggK m c) (topHalf (m ((c : Thread nD τ).loc main_arg8))) (botHalf (m ((c : Thread nD τ).loc main_arg8))) (m ((c : Thread nD τ).loc main_arg9)) (m ((c : Thread nD τ).loc main_arg10)) (m ((c : Thread nD τ).loc main_arg11)) := by
  refine (W6_arr m ρ c 7).trans ((Reg1.arr7 (V5 m ρ) c).trans ?_)
  show out (V5 m ρ c main_v8_0) (V5 m ρ c main_v17) (V5 m ρ c main_v4) (V5 m ρ c main_v6) (V5 m ρ c main_arg9) (V5 m ρ c main_v7) (V5 m ρ c main_arg11) = _
  rw [V5_v8_0, V5_v17, V5_v4, V5_v6, V5_arg9, V5_v7, V5_arg11]

end Cert.KernelIdeal.KResult

end
-- ==== Proof.RefValue.lean ====
/-
  The reference's result as the network of whole arrays.

  Stage by stage the reference's host operations are the layers: a `dot_general` plus a broadcast vector is an
  affine layer, a maximum with a broadcast zero is the rectifier, and the product of the joined rows with the
  512-row weight matrix is the sum of the products of the two halves. The take of hidden rows, the index
  arithmetic before it and the scatter-add after it are kept as the reference prints them.
-/
import proofs.«427188_j10995116278155_3_alg».proof.Proof.Gen.ReferenceIdeal.Read
import proofs.«427188_j10995116278155_3_alg».proof.Proof.Model

noncomputable section

namespace Cert.ReferenceIdeal.RefValue

open Cert.ReferenceIdeal Cert.ReferenceIdeal.Gen Cert.ReferenceIdeal.Read Cert.Layers Cert.Model
open Idealize.ShloMosaic Idealize.ShloMosaic.TcCoe Idealize.ShloMosaic.ValueIdx

theorem dotA : dot_S50000x16_S16x256_S50000x256_1_0_0_1_n_n = DotDims.plain 50000 16 256 := rfl
theorem dotB : dot_S50000x256_S256x256_S50000x256_1_0_0_1_n_n = DotDims.plain 50000 256 256 := rfl
theorem dotC : dot_S800000x256_S256x256_S800000x256_1_0_0_1_n_n = DotDims.plain 800000 256 256 := rfl
theorem dotD : dot_S50000x512_S512x256_S50000x256_1_0_0_1_n_n = DotDims.plain 50000 512 256 := rfl
theorem dotE : dot_S50000x256_S256x16_S50000x16_1_0_0_1_n_n = DotDims.plain 50000 256 16 := rfl

variable (x0 : Mat 50000 16) (x1 : IVec S2x800000 32) (x2 : Mat 16 256) (x3 : Row 256) (x4 : Mat 256 256) (x5 : Row 256)
  (x6 : Mat 256 256) (x7 : Row 256) (x8 : Mat 512 256) (x9 : Row 256) (x10 : Mat 256 16) (x11 : Row 16)

/-- The reference's hidden rows. -/
theorem v8_eq : val_main_v8 (F := Ideal) x0 x2 x3 x4 x5 = hid x0 x2 x3 x4 x5 := by
  unfold val_main_v8 val_main_v5 val_main_v7 val_main_v6 val_main_v4 val_main_call0_v0 val_main_call0_cst val_main_v3 val_main_v0
    val_main_v2 val_main_v1 hid
  rw [host_aff _ dotA, host_relu, host_aff _ dotB]

/-- The reference's message rows: the layers of the hidden rows it took. -/
theorem v24_eq : val_main_v24 (F := Ideal) x0 x1 x2 x3 x4 x5 x6 x7
    = msg (Host.gather gather_S50000x256_S800000x1_S800000x256_1_0_n_n_0_1_1256 (hid x0 x2 x3 x4 x5) (val_main_v18 (F := Ideal) x1)) x6 x7 := by
  unfold val_main_v24 val_main_call1_v0 val_main_call1_cst val_main_v23 val_main_v22 val_main_v21 val_main_v20 val_main_v19 msg
  rw [v8_eq, host_aff _ dotC, host_relu]

/-- The reference's aggregated messages. -/
abbrev aggR : FVec Ideal S50000x256 .f32 :=
  Host.scatterAdd (F := Ideal) (φ := .f32) scatter_S50000x256_S800000x1_S800000x256_1_0_0_1 (val_main_v25 (F := Ideal)) (val_main_v26 (F := Ideal) x1)
    (msg (Host.gather gather_S50000x256_S800000x1_S800000x256_1_0_n_n_0_1_1256 (hid x0 x2 x3 x4 x5) (val_main_v18 (F := Ideal) x1)) x6 x7)

theorem v27_eq : val_main_v27 (F := Ideal) x0 x1 x2 x3 x4 x5 x6 x7 = aggR x0 x1 x2 x3 x4 x5 x6 x7 := by
  unfold val_main_v27
  rw [v24_eq]

/-- THE REFERENCE'S RESULT. -/
theorem v38_eq : val_main_v38 (F := Ideal) x0 x1 x2 x3 x4 x5 x6 x7 x8 x9 x10 x11
    = out (hid x0 x2 x3 x4 x5) (aggR x0 x1 x2 x3 x4 x5 x6 x7) (topHalf x8) (botHalf x8) x9 x10 x11 := by
  unfold val_main_v38 val_main_v37 val_main_v36 val_main_v35 val_main_v34 val_main_v33 val_main_call2_v0 val_main_call2_cst
    val_main_v32 val_main_v31 val_main_v30 val_main_v29 val_main_v28 out
  rw [v8_eq, v27_eq, host_join _ dotD, host_relu, host_aff _ dotE, host_tanh]

end Cert.ReferenceIdeal.RefValue

end
-- ==== Proof.PreFacts.lean ====
/-
  What the precondition says of the source indices.

  The precondition is a conjunction whose last conjunct is "every entry `s` of the first row of the edge array
  satisfies `-50000 ≤ s` and `s < 50000`" (a reduction by `and` over the 800000 entries). Only that conjunct
  is used: the two programs agree on every finite or infinite float input, and differ only where a source
  index falls outside the node axis.
-/
import proofs.«427188_j10995116278155_3_alg».proof.Pre_finite_inputs
import Idealize.ShloMosaic.Lib.ReduceAll
import Idealize.ShloMosaic.Lib.ValueIdx
import Idealize.ShloMosaic.PureOps.Ideal

set_option maxRecDepth 16384

noncomputable section

namespace Cert.Pre_finite_inputs.Decode

open Cert.Pre_finite_inputs Cert.Pre_finite_inputs.Facts
open Idealize.ShloMosaic Idealize.ShloMosaic.ValueIdx

variable [Cert.Pre_finite_inputs.Facts]

instance : Subsingleton S_.Idx := ⟨fun a b => funext fun d => d.elim0⟩

/-- The source indices: the first row of the edge array. -/
def src (x1 : IVec S2x800000 32) : IVec S800000 32 :=
  shapeCast S800000 (extractStridedSlice S1x800000 ![0, 0] x1 slices_S2x800000_S1x800000_0_0) shapeCasts_S1x800000_S800000

/-- Under the precondition every source index `s` has `-50000 ≤ s < 50000` as a signed word. -/
theorem src_range (x0 : FVec Ideal S50000x16 .f32) (x1 : IVec S2x800000 32) (x2 : FVec Ideal S16x256 .f32) (x3 : FVec Ideal S256 .f32)
    (x4 : FVec Ideal S256x256 .f32) (x5 : FVec Ideal S256 .f32) (x6 : FVec Ideal S256x256 .f32) (x7 : FVec Ideal S256 .f32)
    (x8 : FVec Ideal S512x256 .f32) (x9 : FVec Ideal S256 .f32) (x10 : FVec Ideal S256x16 .f32) (x11 : FVec Ideal S16 .f32)
    (h : fn (F := Ideal) x0 x1 x2 x3 x4 x5 x6 x7 x8 x9 x10 x11 = fun _ => 1#1) (e : S800000.Idx) :
    IntOp.cmpi .sge (src x1 e) 4294917296#32 = 1#1 ∧ IntOp.cmpi .slt (src x1 e) 50000#32 = 1#1 := by
  have h0 := congrFun h ix0
  change IntOp.andi _ (Host.reduce IntOp.andi _ _ _ _ ix0) = 1#1 at h0
  obtain ⟨-, h1⟩ := IntOp.andi_eq_one.1 h0
  have h2 := Host.reduce_andi_all _ _ _ _ ix0 h1 e
  change IntOp.andi (IntOp.cmpi .sge _ _) (IntOp.cmpi .slt _ _) = 1#1 at h2
  exact IntOp.andi_eq_one.1 h2

end Cert.Pre_finite_inputs.Decode

end
-- ==== Proof.LibTake.lean ====
/-
  Taking rows of a matrix at a column of signed 32-bit start indices, and the words and masks around it.

  `stablehlo.gather` of an `N × C` matrix at an `n × 1` column of start indices, one collapsed row axis and
  one whole row per index, reads at `(p, q)` the matrix at `(ρ p, q)`, where `ρ p` is start index `p` read
  signed and clamped into `[0, N - 1]`: so it commutes with any function that acts row by row. A reduction by
  `and` from `1` over words that are all `1` is `1`. A signed index `s` with `-N ≤ s < N`, wrapped to
  `s + N` when negative, lies in `[0, N - 1]` (stated at `N = 50000`).
-/
import Idealize.ShloMosaic.Lib.StableHlo.Predicate
import Idealize.ShloMosaic.Lib.ReduceAll
import Idealize.ShloMosaic.Lib.ValueIdx

noncomputable section

namespace Cert.Take

open Idealize.ShloMosaic Idealize.ShloMosaic.ValueIdx Idealize.ShloMosaic.StableHlo.Predicate

/-- A coordinate read at the one entry of a one-entry list of axes. -/
theorem val_at {t : Shape} (j : t.Idx) (l : List (Fin t.rank)) (v : Fin t.rank) (h : l = [v]) (k : Nat) (hk : k < l.length) :
    (j l[k]).val = (j v).val := by
  subst h
  have hk0 : k = 0 := by simpa using hk
  subst hk0
  rfl

/-- The row a start index names: read signed, clamped into `[0, N - 1]`. -/
def clampRow {n w : Nat} (N : Nat) (hN : 0 < N) (idx : IVec ⟨2, ![n, 1]⟩ w) (p : Fin n) : Fin N :=
  ⟨min (idx (ixP p)).toInt.toNat (N - 1), by omega⟩

/-- THE ROW TAKE read at `(p, q)`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (clampRow N hN idx p) q) := by
  unfold Host.gather
  congr 1
  funext a
  apply Fin.ext
  have hb0 : ∀ a : Fin 2, a ∉ d.operandBatchingDims := fun a => by rw [hob]; exact List.not_mem_nil
  have hbd : d.batchDims = [0] := by
    show Shape.kept _ d.offsetDims = _
    rw [hoff]; rfl
  have hsk : d.sKept = [1] := by
    show Shape.kept _ (d.collapsedSliceDims ++ d.operandBatchingDims) = _
    rw [hcoll, hob]; rfl
  match a with
  | ⟨0, _⟩ =>
    have hk : (0 : Fin 2) ∉ d.sKept := by rw [hsk]; show (0 : Fin 2) ∉ ([1] : List (Fin 2)); decide
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ixP p)).toInt.toNat (N - 1)
    rw [GatherDims.batchCoord_eq_zero _ _ _ (hb0 0), GatherDims.offCoord_eq_zero _ _ _ hk, Nat.add_zero]
    unfold GatherDims.start
    rw [dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      exact val_at (ix2 p q) d.batchDims 0 hbd _ _
    | ⟨1, _⟩ =>
      unfold GatherDims.siIdx
      rw [dif_pos (by rw [hivd])]
      apply Fin.ext
      show List.idxOf (0 : Fin 2) d.startIndexMap = 0
      rw [hsim]; rfl
  | ⟨1, _⟩ =>
    have hk : (1 : Fin 2) ∈ d.sKept := by rw [hsk]; exact List.mem_singleton.mpr rfl
    have hm : (1 : Fin 2) ∉ d.startIndexMap := by rw [hsim]; show (1 : Fin 2) ∉ ([0] : List (Fin 2)); decide
    show d.start (ix2 p q) idx 1 + d.batchCoord (ix2 p q) 1 + d.offCoord (ix2 p q) 1 = q.val
    rw [GatherDims.batchCoord_eq_zero _ _ _ (hb0 1), Nat.add_zero]
    unfold GatherDims.start
    rw [dif_neg hm, Nat.zero_add]
    unfold GatherDims.offCoord
    rw [dif_pos hk]
    exact val_at (ix2 p q) d.offsetDims 1 hoff _ _

/-! ## A reduction by `and` over ones -/

theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..), show IntOp.andi (1#1 : BitVec 1) 1#1 = 1#1 from by decide]
    exact ih fun n hn => h n (List.mem_cons_of_mem _ hn)

/-- A `stablehlo.reduce` by `and` from `1` over words that are all `1` is `1` everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-! ## A wrapped index in range -/

/-- A signed word `s` with `-50000 ≤ s < 50000`, replaced by `s + 50000` when negative, lies in `[0, 49999]`. -/
theorem wrapped_in_range (s : BitVec 32) (h1 : IntOp.cmpi .sge s 4294917296#32 = 1#1) (h2 : IntOp.cmpi .slt s 50000#32 = 1#1) :
    IntOp.cmpi .sge (Scalar.select (IntOp.cmpi .slt s 0#32) (IntOp.addi s 50000#32) s) 0#32 = 1#1
    ∧ IntOp.cmpi .sle (Scalar.select (IntOp.cmpi .slt s 0#32) (IntOp.addi s 50000#32) s) 49999#32 = 1#1 := by
  rw [IntOp.cmpi_sge] at h1
  rw [IntOp.cmpi_slt] at h2
  have e1 : (4294917296#32 : BitVec 32).toInt = -50000 := by decide
  have e2 : (50000#32 : BitVec 32).toInt = 50000 := by decide
  have e3 : (0#32 : BitVec 32).toInt = 0 := by decide
  have e4 : (49999#32 : BitVec 32).toInt = 49999 := by decide
  rw [e1] at h1
  rw [e2] at h2
  by_cases hneg : IntOp.cmpi .slt s 0#32 = 1#1
  · rw [hneg, select_one]
    rw [IntOp.cmpi_slt, e3] at hneg
    have ha : (IntOp.addi s 50000#32).toInt = s.toInt + 50000 := by
      show (s + 50000#32).toInt = _
      rw [BitVec.toInt_add, e2, Int.bmod_def]
      split <;> omega
    rw [IntOp.cmpi_sge, IntOp.cmpi_sle, ha, e3, e4]
    omega
  · rw [eq_zero_of_ne_one hneg, select_zero]
    rw [IntOp.cmpi_slt, e3] at hneg
    rw [IntOp.cmpi_sge, IntOp.cmpi_sle, e3, e4]
    omega

end Cert.Take

end
-- ==== Proof.Bridge.lean ====
/-
  The two programs compute one function of their arguments, where every source index is in range.

  Under the precondition each source index `s` has `-50000 ≤ s < 50000`, so its wrapped value lies in
  `[0, 49999]`: the kernel program's range test passes on every edge and its take of message rows keeps every
  row it took. A take of rows commutes with layers that act row by row, so the message rows of the taken
  hidden rows (the reference) are the taken message rows (the kernel program). The scatter-add, the index
  arithmetic and the remaining layers are then the same terms on both sides.
-/
import proofs.«427188_j10995116278155_3_alg».proof.Proof.KResult
import proofs.«427188_j10995116278155_3_alg».proof.Proof.RefValue
import proofs.«427188_j10995116278155_3_alg».proof.Proof.PreFacts
import proofs.«427188_j10995116278155_3_alg».proof.Proof.LibTake

set_option maxRecDepth 16384

noncomputable section

namespace Cert.Bridge

open Cert.Layers Cert.Model Cert.Take
open Idealize.ShloMosaic Idealize.ShloMosaic.TcCoe Idealize.ShloMosaic.ValueIdx
open Cert.KernelIdeal.KValue

/-- A take of rows commutes with the message layers: they act row by row. -/
theorem gather_msg {N n : Nat} (d : GatherDims ⟨2, ![N, 256]⟩ ⟨2, ![n, 1]⟩ ⟨2, ![n, 256]⟩)
    (hoff : d.offsetDims = [1]) (hcoll : d.collapsedSliceDims = [0]) (hob : d.operandBatchingDims = [])
    (hsim : d.startIndexMap = [0]) (hivd : d.indexVectorDim = 1) (hN : 0 < N)
    (H : Mat N 256) (CW : Mat 256 256) (cb : Row 256) (idx : IVec ⟨2, ![n, 1]⟩ 32) :
    Host.gather d (msg H CW cb) idx = msg (Host.gather d H idx) CW cb := by
  have hG : Host.gather d H idx = fun i : (⟨2, ![n, 256]⟩ : Shape).Idx => H (ix2 (clampRow N hN idx (rowOf i)) (colOf i)) := by
    funext i
    obtain ⟨p, q, rfl⟩ : ∃ (p : Fin n) (q : Fin 256), i = ix2 p q := ⟨i 0, i 1, eq_ix2 i⟩
    exact gather_rows d hoff hcoll hob hsim hivd H idx p q hN
  rw [hG, msg_rows]
  funext i
  obtain ⟨p, q, rfl⟩ : ∃ (p : Fin n) (q : Fin 256), i = ix2 p q := ⟨i 0, i 1, eq_ix2 i⟩
  exact gather_rows d hoff hcoll hob hsim hivd (msg H CW cb) idx p q hN

section Kernel
open Cert.KernelIdeal Cert.KernelIdeal.Gen

/-- Where every source index is in range, the range test passes on every edge. -/
theorem inRange_all (s : IVec S800000 32)
    (hs : ∀ e, IntOp.cmpi .sge (s e) 4294917296#32 = 1#1 ∧ IntOp.cmpi .slt (s e) 50000#32 = 1#1) (k : S800000.Idx) :
    inRangeOf s k = 1#1 := by
  unfold inRangeOf
  refine reduce_andi_of_all _ _ _ _ k rfl (fun y => ?_)
  obtain ⟨e, he⟩ : ∃ e, startOf s y = wrapOf s e := ⟨_, rfl⟩
  have hwr : wrapOf s e = Scalar.select (IntOp.cmpi .slt (s e) 0#32) (IntOp.addi (s e) 50000#32) (s e) := rfl
  show IntOp.andi (IntOp.cmpi .sge (startOf s y) 0#32) (IntOp.cmpi .sle (startOf s y) 49999#32) = 1#1
  rw [he, hwr]
  exact IntOp.andi_eq_one.2 (wrapped_in_range (s e) (hs e).1 (hs e).2)

/-- Where every source index is in range, the kernel program's take keeps every row it took. -/
theorem takeOf_eq (s : IVec S800000 32)
    (hs : ∀ e, IntOp.cmpi .sge (s e) 4294917296#32 = 1#1 ∧ IntOp.cmpi .slt (s e) 50000#32 = 1#1)
    (Y : FVec Ideal S50000x256 .f32) :
    takeOf s Y = Host.gather gather_S50000x256_S800000x1_S800000x256_1_0_n_n_0_1_1256 Y (startOf s) := by
  funext i
  unfold takeOf
  obtain ⟨k, hk⟩ : ∃ k, broadcastInDim S800000x256 ![0] bcast_S800000_S800000x256_0 (inRangeOf s) i = inRangeOf s k := ⟨_, rfl⟩
  rw [select_apply, hk, inRange_all s hs k, select_one]

end Kernel

/-! ## The aggregated rows, and the two results -/

theorem scatter_congr {s si u : Shape} {w : Nat} {φ : FTy} {sc sc' : ScatterDims s si u} (h1 : sc = sc')
    {z z' : FVec Ideal s φ} (h2 : z = z') {d d' : IVec si w} (h3 : d = d') {x x' : FVec Ideal u φ} (h4 : x = x') :
    Host.scatterAdd sc z d x = Host.scatterAdd sc' z' d' x' := by
  subst h1 h2 h3 h4; rfl

theorem gather_congr {α : Type} {s si t : Shape} {w : Nat} {g g' : GatherDims s si t} (h1 : g = g')
    {Y Y' : s.Idx → α} (h2 : Y = Y') {i i' : IVec si w} (h3 : i = i') :
    Host.gather g Y i = Host.gather g' Y' i' := by
  subst h1 h2 h3; rfl

section Final
open Cert.KernelIdeal.KResult

variable (m : (ℓ : Loc Cert.KernelIdeal.nD Cert.KernelIdeal.τ Cert.KernelIdeal.sig) → Buf (Elt Ideal) ℓ)

/-- Where every source index is in range, the kernel program's aggregated rows are the reference's. -/
theorem aggK_eq (c : Dev Cert.KernelIdeal.nD)
    (hs : ∀ e, IntOp.cmpi .sge (srcOf (m ((c.tc : Thread Cert.KernelIdeal.nD Cert.KernelIdeal.τ).loc Cert.KernelIdeal.main_arg1)) e) 4294917296#32 = 1#1
      ∧ IntOp.cmpi .slt (srcOf (m ((c.tc : Thread Cert.KernelIdeal.nD Cert.KernelIdeal.τ).loc Cert.KernelIdeal.main_arg1)) e) 50000#32 = 1#1) :
    aggK m c = Cert.ReferenceIdeal.RefValue.aggR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  unfold aggK
  rw [takeOf_eq _ hs]
  unfold msgK
  rw [gather_msg _ rfl rfl rfl rfl rfl (by decide)]
  unfold aggOf
  refine scatter_congr rfl rfl rfl (congrArg (fun G => msg G _ _) (gather_congr rfl rfl rfl))

end Final

end Cert.Bridge

end
-- ==== Proof.lean ====
/-
  A two-launch message-passing network on 50000 nodes and 800000 edges against its plain reference, over the
  extended reals.

  Both programs compute, for every node, a hidden row (an affine layer, the rectifier, a second affine
  layer), aggregate over the edges the rectifier of an affine layer of the SOURCE node's hidden row into the
  DESTINATION node, and map the hidden row joined with the aggregated row through an affine layer, the
  rectifier, a second affine layer and the hyperbolic tangent. The kernel program applies the edge layer
  once per node and then takes rows at the source indices, where the reference takes hidden rows first and
  applies the layer per edge: the layer acts row by row, so the two orders give the same rows. It splits the
  joined layer into the products with the two halves of the weight matrix, which is the same sum of 512
  terms. Changes of float format are the identity on extended reals, and no step uses finiteness.
  The kernel program's take fills a row whose (wrapped) source index is outside the node axis, where the
  reference's take clamps the index: the claim is stated where every source index `s` has
  `-50000 ≤ s < 50000`, and there both takes read the same rows.
-/
import proofs.«427188_j10995116278155_3_alg».proof.Defs
import proofs.«427188_j10995116278155_3_alg».proof.Proof.Gen.Kernel
import proofs.«427188_j10995116278155_3_alg».proof.Proof.Gen.Kernel.Skeleton
import proofs.«427188_j10995116278155_3_alg».proof.Proof.Gen.Kernel.Launch
import proofs.«427188_j10995116278155_3_alg».proof.Proof.Gen.Kernel.Points
import proofs.«427188_j10995116278155_3_alg».proof.Proof.Gen.Kernel.Frame
import proofs.«427188_j10995116278155_3_alg».proof.Proof.Gen.KernelIdeal
import proofs.«427188_j10995116278155_3_alg».proof.Proof.Gen.KernelIdeal.Skeleton
import proofs.«427188_j10995116278155_3_alg».proof.Proof.Gen.KernelIdeal.Launch
import proofs.«427188_j10995116278155_3_alg».proof.Proof.Gen.KernelIdeal.Points
import proofs.«427188_j10995116278155_3_alg».proof.Proof.Gen.KernelIdeal.Frame
import proofs.«427188_j10995116278155_3_alg».proof.Proof.Gen.ReferenceIdeal
import proofs.«427188_j10995116278155_3_alg».proof.Proof.Gen.Pre_finite_inputs
import proofs.«427188_j10995116278155_3_alg».proof.Proof.Gen.ReferenceIdeal.Run
import proofs.«427188_j10995116278155_3_alg».proof.Proof.Gen.ReferenceIdeal.Read
import proofs.«427188_j10995116278155_3_alg».proof.Proof.KRun
import proofs.«427188_j10995116278155_3_alg».proof.Proof.Bridge
import Idealize.ShloMosaic.Adequacy
import Idealize.ShloMosaic.Init

set_option maxRecDepth 16384

noncomputable section

namespace Cert.Proof

open Idealize.ShloMosaic Idealize.SL.Sem
open Cert.Layers Cert.Model

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with every source index in range, the two idealized programs end
    with the same result: the output rows of all the nodes. -/
theorem algebraic : Cert.algebraic_KernelIdeal_ReferenceIdeal := by
  intro m ρ m' ρ' hpre hagree
  refine ⟨fun c => out (Cert.KernelIdeal.KResult.hidK m c) (Cert.KernelIdeal.KResult.aggK m c)
    (topHalf (m ((c.tc : Thread Cert.KernelIdeal.nD Cert.KernelIdeal.τ).loc Cert.KernelIdeal.main_arg8))) (botHalf (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KResult.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    have hs := fun e => Cert.Pre_finite_inputs.Decode.src_range _ _ _ _ _ _ _ _ _ _ _ _ (hpre c) e
    refine (Cert.ReferenceIdeal.Read.val_main_v38_eq (F := Ideal) _ _ _ _ _ _ _ _ _ _ _ _).trans ?_
    rw [Cert.ReferenceIdeal.RefValue.v38_eq, a0, a1, a2, a3, a4, a5, a6, a7, a8, a9, a10, a11,
      ← Cert.Bridge.aggK_eq m c hs]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
